-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) (main_arg1 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  let main_v4 : FVec F S16x4096x3 .f32 := Host.absf main_arg1
  let main_cst_0 : FVec F S_ .f32 := constant S_ .f32 0x7F800000#32
  let main_v5 : FVec F S16x4096x3 .f32 := broadcastInDim S16x4096x3 ![] bcast_S_S16x4096x3 main_cst_0
  let main_v6 : IVec S16x4096x3 1 := cmpf .olt main_v4 main_v5
  let main_c_1 : IVec S_ 1 := constantI S_ 1 1#1
  let main_v7 : IVec S_ 1 := (fun x v => Host.reduce IntOp.andi x v reducesTo_S16x4096x3_S_d0_1_2 h_S_) main_v6 main_c_1
  let main_v8 : IVec S_ 1 := andi main_v3 main_v7
  main_v8
-- ==== Kernel.lean ====
abbrev S16x4096x3 : Shape := ⟨3, ![16, 4096, 3]⟩
abbrev S16x4096 : Shape := ⟨2, ![16, 4096]⟩
abbrev S8x512x3 : Shape := ⟨3, ![8, 512, 3]⟩
abbrev S8x512 : Shape := ⟨2, ![8, 512]⟩
abbrev S8x4096 : Shape := ⟨2, ![8, 4096]⟩
abbrev S8x3x512 : Shape := ⟨3, ![8, 3, 512]⟩
abbrev S8x512x1 : Shape := ⟨3, ![8, 512, 1]⟩
abbrev S8x1x512 : Shape := ⟨3, ![8, 1, 512]⟩
abbrev S8x512x512 : Shape := ⟨3, ![8, 512, 512]⟩
abbrev S_ : Shape := ⟨0, ![]⟩
abbrev S16 : Shape := ⟨1, ![16]⟩

abbrev nBuf : Space → Nat
  | .hbm => 19
  | .vmem => 8
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096, .f32⟩
  | .hbm, ⟨3, _⟩ => ⟨S16x4096, .f32⟩
  | .hbm, ⟨4, _⟩ => ⟨S_, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x512x3, .f32⟩
  | .local _ .vmem, ⟨3, _⟩ => ⟨S8x512x3, .f32⟩
  | .local _ .vmem, ⟨4, _⟩ => ⟨S8x512, .f32⟩
  | .local _ .vmem, ⟨5, _⟩ => ⟨S8x512, .f32⟩
  | .local _ .vmem, ⟨6, _⟩ => ⟨S8x4096, .f32⟩
  | .local _ .vmem, ⟨7, _⟩ => ⟨S8x4096, .f32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_cst_4 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c512_i32 : BitVec 32 := 512#32
  let v46 : BitVec 32 := Scalar.muli arg2 c512_i32
  v46
def k0_off1 (i : grid0.Coords) : Fin 2 → Nat :=
  let c0_17 : Index := 0#32
  let arg2 : BitVec 32 := BitVec.ofNat 32 (i 2).val
  let c512_i32 : BitVec 32 := 512#32
  let v46 : BitVec 32 := Scalar.muli arg2 c512_i32
  let v47 : BitVec 32 := v46
  let v48 : Index := Scalar.indexCast v47
  ![0, v48.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S8x512x3_S8x512x3_0_0_0 : ∀ a, (![0, 0, 0] : Fin 3 → Nat) a + S8x512x3.size a ≤ S8x512x3.size a
  h_S8x512x3 : 0 < S8x512x3.numel
  transposes_S8x512x3_p0_2_1_S8x3x512 : S8x512x3.Transposes [0, 2, 1] S8x3x512
  reduces_S8x512x3_S8x512 : S8x512x3.Reduces [2] S8x512
  shapeCasts_S8x512_S8x512x1 : S8x512.ShapeCasts S8x512x1
  reduces_S8x3x512_S8x512 : S8x3x512.Reduces [1] S8x512
  shapeCasts_S8x512_S8x1x512 : S8x512.ShapeCasts S8x1x512
  slices_S8x512x3_o0_0_0_S8x512x1 : S8x512x3.Slices ![0, 0, 0] S8x512x1
  slices_S8x3x512_o0_0_0_S8x1x512 : S8x3x512.Slices ![0, 0, 0] S8x1x512
  broadcasts_S8x512x1_S8x512x512 : S8x512x1.Broadcasts S8x512x512
  broadcasts_S8x1x512_S8x512x512 : S8x1x512.Broadcasts S8x512x512
  slices_S8x512x3_o0_0_1_S8x512x1 : S8x512x3.Slices ![0, 0, 1] S8x512x1
  slices_S8x3x512_o0_1_0_S8x1x512 : S8x3x512.Slices ![0, 1, 0] S8x1x512
  slices_S8x512x3_o0_0_2_S8x512x1 : S8x512x3.Slices ![0, 0, 2] S8x512x1
  slices_S8x3x512_o0_2_0_S8x1x512 : S8x3x512.Slices ![0, 2, 0] S8x1x512
  reduces_S8x512x512_S8x512 : S8x512x512.Reduces [2] S8x512
  reduces_S8x512x512_S8x512_2 : S8x512x512.Reduces [1] S8x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x4096_S8x4096_0_0 : ∀ a, (![0, 0] : Fin 2 → Nat) a + S8x4096.size a ≤ S8x4096.size a
  h_S8x4096 : 0 < S8x4096.numel
  reducesTo_S16x4096_S16_d1 : S16x4096.ReducesTo [1] S16
  h_S_ : 0 < S_.numel
  bcast_S_S16 : S_.BroadcastsInDim S16 (![] : Fin 0 → Fin S16.rank)
  reducesTo_S16_S_d0 : S16.ReducesTo [0] S_
  hrank0 : 0 < grid0.rank
  k0_mult1_dvd : ∀ i : grid0.Coords, 128 ∣ (k0_mult1 i).toNat
  k0_off1_inb : ∀ i : grid0.Coords, ∀ a, (k0_off1 i) a + S8x512.size a ≤ S8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S16x4096x3.size a
  hwx0_0 : ∀ i : grid0.Coords, EltTy.bits .f32 = 32 ∨ (Rect.block (s := S16x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x3.size a ≤ S16x4096x3.size a
  hwx0_1 : ∀ i : grid0.Coords, EltTy.bits .f32 = 32 ∨ (Rect.block (s := S16x4096x3) S8x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S16x4096.size a
  hwx0_2 : ∀ i : grid0.Coords, EltTy.bits .f32 = 32 ∨ (Rect.block (s := S16x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S16x4096.size a
  hwx0_3 : ∀ i : grid0.Coords, EltTy.bits .f32 = 32 ∨ (Rect.block (s := S16x4096) S8x4096.size (cc0_transform_3 i) (hinb0_3 i)).WholeWords (EltTy.packing .f32)

variable [Facts₀]

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x4096x3 : Shape := ⟨3, ![16, 4096, 3]⟩
abbrev S_ : Shape := ⟨0, ![]⟩
abbrev S16x4096 : Shape := ⟨2, ![16, 4096]⟩
abbrev S16x4096x4096 : Shape := ⟨3, ![16, 4096, 4096]⟩
abbrev S16x4096x1 : Shape := ⟨3, ![16, 4096, 1]⟩
abbrev S16x1x4096 : Shape := ⟨3, ![16, 1, 4096]⟩
abbrev S16 : Shape := ⟨1, ![16]⟩

abbrev nBuf : Space → Nat
  | .hbm => 37
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x4096x3, .f32⟩
  | .hbm, ⟨2, _⟩ => ⟨S16x4096x3, .f32⟩
  | .hbm, ⟨3, _⟩ => ⟨S_, .f32⟩
  | .hbm, ⟨4, _⟩ => ⟨S16x4096, .f32⟩
  | .hbm, ⟨5, _⟩ => ⟨S16x4096x3, .f32⟩
  | .hbm, ⟨6, _⟩ => ⟨S_, .f32⟩
  | .hbm, ⟨7, _⟩ => ⟨S16x4096, .f32⟩
  | .hbm, ⟨8, _⟩ => ⟨S16x4096x4096, .f32⟩
  | .hbm, ⟨9, _⟩ => ⟨S16x4096x1, .f32⟩
  | .hbm, ⟨10, _⟩ => ⟨S16x1x4096, .f32⟩
  | .hbm, ⟨11, _⟩ => ⟨S16x4096x4096, .f32⟩
  | .hbm, ⟨12, _⟩ => ⟨S16x4096x4096, .f32⟩
  | .hbm, ⟨13, _⟩ => ⟨S16x4096x4096, .f32⟩
  | .hbm, ⟨14, _⟩ => ⟨S_, .f32⟩
  | .hbm, ⟨15, _⟩ => ⟨S16x4096x4096, .f32⟩
  | .hbm, ⟨16, _⟩ => ⟨S16x4096x4096, .f32⟩
  | .hbm, ⟨17, _⟩ => ⟨S16x4096x4096, .f32⟩
  | .hbm, ⟨18, _⟩ => ⟨S_, .f32⟩
  | .hbm, ⟨19, _⟩ => ⟨S16x4096, .f32⟩
  | .hbm, ⟨20, _⟩ => ⟨S_, .f32⟩
  | .hbm, ⟨21, _⟩ => ⟨S16x4096, .f32⟩
  | .hbm, ⟨22, _⟩ => ⟨S_, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S16x4096x3_S16x4096_d2 : S16x4096x3.ReducesTo [2] S16x4096
  h_S_ : 0 < S_.numel
  bcast_S16x4096_S16x4096x1_0_1 : S16x4096.BroadcastsInDim S16x4096x1 (![0, 1] : Fin 2 → Fin S16x4096x1.rank)
  bcast_S16x4096_S16x1x4096_0_2 : S16x4096.BroadcastsInDim S16x1x4096 (![0, 2] : Fin 2 → Fin S16x1x4096.rank)
  bcast_S16x4096x1_S16x4096x4096_0_1_2 : S16x4096x1.BroadcastsInDim S16x4096x4096 (![0, 1, 2] : Fin 3 → Fin S16x4096x4096.rank)
  bcast_S16x1x4096_S16x4096x4096_0_1_2 : S16x1x4096.BroadcastsInDim S16x4096x4096 (![0, 1, 2] : Fin 3 → Fin S16x4096x4096.rank)
  bcast_S_S16x4096x4096 : S_.BroadcastsInDim S16x4096x4096 (![] : Fin 0 → Fin S16x4096x4096.rank)
  reducesTo_S16x4096x4096_S16x4096_d2 : S16x4096x4096.ReducesTo [2] S16x4096
  reducesTo_S16x4096x4096_S16x4096_d1 : S16x4096x4096.ReducesTo [1] S16x4096
  reducesTo_S16x4096_S16_d1 : S16x4096.ReducesTo [1] S16
  bcast_S_S16 : S_.BroadcastsInDim S16 (![] : Fin 0 → Fin S16.rank)
  reducesTo_S16_S_d0 : S16.ReducesTo [0] S_
  dot_S16x4096x3_S16x4096x3_S16x4096x4096_2_2_1_1_0_0_wf : DotDims.WF S16x4096x3 S16x4096x3 S16x4096x4096 [2] [2] [1] [1] [0] [0]

variable [Facts₀]

def dot_S16x4096x3_S16x4096x3_S16x4096x4096_2_2_1_1_0_0 : DotDims S16x4096x3 S16x4096x3 S16x4096x4096 where
  lhsContracting := [2]
  rhsContracting := [2]
  lhsNonContracting := [1]
  rhsNonContracting := [1]
  lhsBatch := [0]
  rhsBatch := [0]
  wf := dot_S16x4096x3_S16x4096x3_S16x4096x4096_2_2_1_1_0_0_wf

class Facts : Prop extends Facts₀ where

variable [Facts]
-- ==== Proof.StepsK.lean ====
/-
  The pairwise-distance kernel keeps two running blocks in its output staging buffers while it sweeps the grid
  (batch half, source tile, target tile; the target tile fastest):
    * the source-to-target block (8 × 512): for each source point of the current tile the least distance found so far
      over the target tiles visited; it starts anew (from +∞) whenever the target tile index is 0;
    * the target-to-source block (8 × 4096): for each target point of the whole batch half the least distance found so
      far over the source tiles visited; it starts anew only when both tile indices are 0, and each point touches just
      the 512 columns of its own target tile.
  This module names the two branch conditions over the grid, one point's effect on each block, and by recursion on the
  point what each block holds after every point.
-/
import proofs.«175714_j26963804685126_1_alg».proof.Proof.Gen.Kernel.Launch
import proofs.«175714_j26963804685126_1_alg».proof.Proof.Gen.Kernel.Skeleton
import proofs.«175714_j26963804685126_1_alg».proof.Proof.Gen.Kernel.Points
import proofs.«175714_j26963804685126_1_alg».proof.Proof.Gen.Kernel.Frame
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two branch conditions of the body, over the grid -/

/-- The first conditional's condition: the target tile index is 0. -/
abbrev condRow (i : grid0.Coords) : Prop :=
  (Scalar.cmpi .ne (Scalar.extui (Scalar.cmpi .eq (BitVec.ofNat 32 (i 2).val) 0#32)) 0#32) = 1#1
/-- It holds at the points divisible by 8. -/
theorem hcondRow : ∀ t : Fin cfg0.N, condRow (grid0.coords t) ↔ t.val % 8 = 0 :=
  (by decide +kernel : ∀ t : Fin grid0.N, condRow (grid0.coords t) ↔ t.val % 8 = 0)

/-- The second conditional's condition: both tile indices are 0. -/
abbrev condAll (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points divisible by 64. -/
theorem hcondAll : ∀ t : Fin cfg0.N, condAll (grid0.coords t) ↔ t.val % 64 = 0 :=
  (by decide +kernel : ∀ t : Fin grid0.N, condAll (grid0.coords t) ↔ t.val % 64 = 0)

theorem z2 : (![0, 0] : Fin S8x512.rank → ℕ) = fun _ => 0 := by funext a; fin_cases a <;> rfl
theorem z2' : (![0, 0] : Fin S8x4096.rank → ℕ) = fun _ => 0 := by funext a; fin_cases a <;> rfl
theorem z3 : (![0, 0, 0] : Fin S8x512x3.rank → ℕ) = fun _ => 0 := by funext a; fin_cases a <;> rfl

/-! ## What one point does to the target-to-source block -/

/-- The 8 × 512 column slice of the target-to-source block that the point at coordinates `i` updates. -/
abbrev sliceRect (i : grid0.Coords) : Rect S8x4096 := Rect.unit (s := S8x4096) (k0_off1 i) S8x512.size (k0_off1_inb i)

/-- The target-to-source block after a point: inside the point's column slice the minimum of what was there and the
    point's column minima `v`, elsewhere unchanged. -/
def cyStep (i : grid0.Coords) (v : FVec F S8x512 .f32) (base : Vec F S8x4096 .f32) : Vec F S8x4096 .f32 := fun y =>
  if h : ∀ a, k0_off1 i a ≤ (y a).val ∧ (y a).val < k0_off1 i a + S8x512.size a then
    k0_pay2 v (View.ld base (sliceRect i)) (Rect.unitLocal (s := S8x4096) (off := k0_off1 i) (size := S8x512.size) y h)
  else base y

/-! ## What the two blocks hold after each point -/

/-- The source-to-target block after point `n`: the row minima of the point's distance tile, folded into +∞ at a point
    divisible by 8 and into what the point before left otherwise. -/
def cxAt (c : Dev nD) : (n : ℕ) → n < cfg0.N → Vec F S8x512 .f32
  | 0, hn => k0_pay6 (iblk m c 0 ⟨0, hn⟩) (iblk m c 1 ⟨0, hn⟩) (k0_pay5 (F := F))
  | n + 1, hn => k0_pay6 (iblk m c 0 ⟨n + 1, hn⟩) (iblk m c 1 ⟨n + 1, hn⟩)
      (if (n + 1) % 8 = 0 then k0_pay5 (F := F) else cxAt c n (Nat.lt_of_succ_lt hn))

/-- The target-to-source block after point `n`: the point's column minima folded into its column slice of the all-+∞
    block at a point divisible by 64 and of what the point before left otherwise. -/
def cyAt (c : Dev nD) : (n : ℕ) → n < cfg0.N → Vec F S8x4096 .f32
  | 0, hn => cyStep (grid0.coords ⟨0, hn⟩) (k0_pay4 (iblk m c 0 ⟨0, hn⟩) (iblk m c 1 ⟨0, hn⟩)) (k0_pay1 (F := F))
  | n + 1, hn => cyStep (grid0.coords ⟨n + 1, hn⟩) (k0_pay4 (iblk m c 0 ⟨n + 1, hn⟩) (iblk m c 1 ⟨n + 1, hn⟩))
      (if (n + 1) % 64 = 0 then k0_pay1 (F := F) else cyAt c n (Nat.lt_of_succ_lt hn))

/-- `cxAt` at a point divisible by 8: a fresh start. -/
theorem cxAt_reset (c : Dev nD) (t : Fin cfg0.N) (h : t.val % 8 = 0) :
    cxAt m c t.val t.isLt = k0_pay6 (iblk m c 0 t) (iblk m c 1 t) (k0_pay5 (F := F)) := by
  obtain ⟨n, hn⟩ := t
  cases n with
  | zero => rfl
  | succ n => exact congrArg (k0_pay6 _ _) (if_pos h)

/-- `cxAt` at any other point: over what the point before left. -/
theorem cxAt_step (c : Dev nD) (t : Fin cfg0.N) (h : ¬t.val % 8 = 0) :
    cxAt m c t.val t.isLt = k0_pay6 (iblk m c 0 t) (iblk m c 1 t)
      (cxAt m c (t.val - 1) (Nat.lt_of_le_of_lt (Nat.sub_le _ _) t.isLt)) := by
  obtain ⟨n, hn⟩ := t
  cases n with
  | zero => exact absurd (Nat.zero_mod _) h
  | succ n => exact congrArg (k0_pay6 _ _) (if_neg h)

/-- `cyAt` at a point divisible by 64: a fresh start. -/
theorem cyAt_reset (c : Dev nD) (t : Fin cfg0.N) (h : t.val % 64 = 0) :
    cyAt m c t.val t.isLt = cyStep (grid0.coords t) (k0_pay4 (iblk m c 0 t) (iblk m c 1 t)) (k0_pay1 (F := F)) := by
  obtain ⟨n, hn⟩ := t
  cases n with
  | zero => rfl
  | succ n => exact congrArg (cyStep _ _) (if_pos h)

/-- `cyAt` at any other point: over what the point before left. -/
theorem cyAt_step (c : Dev nD) (t : Fin cfg0.N) (h : ¬t.val % 64 = 0) :
    cyAt m c t.val t.isLt = cyStep (grid0.coords t) (k0_pay4 (iblk m c 0 t) (iblk m c 1 t))
      (cyAt m c (t.val - 1) (Nat.lt_of_le_of_lt (Nat.sub_le _ _) t.isLt)) := by
  obtain ⟨n, hn⟩ := t
  cases n with
  | zero => exact absurd (Nat.zero_mod _) h
  | succ n => exact congrArg (cyStep _ _) (if_neg h)

end Cert.Kernel.Hand

end
-- ==== Proof.RunsK.lean ====
/-
  The kernel body run symbolically on whole staging buffers, once per control case. The body loads its source and
  target tiles, forms the distance tile, and then:
    * `runStep`  (neither reset): both running blocks are found at what the point before left, and updated;
    * `runRow`   (target tile index 0, source tile index not 0): the source-to-target block is first overwritten with
      +∞, so its prior contents do not matter; the target-to-source block is carried;
    * `runReset` (both tile indices 0): both blocks are first overwritten with +∞.
  In every case the source-to-target buffer ends at the fold of the tile's row minima into what it held (or +∞), and
  the target-to-source buffer at `cyStep` of what it held (or +∞): a store into a column slice, read back index by
  index as "inside the slice the new value, outside the old one".
-/
import proofs.«175714_j26963804685126_1_alg».proof.Proof.Gen.Kernel.Launch
import proofs.«175714_j26963804685126_1_alg».proof.Proof.Gen.Kernel.Skeleton
import proofs.«175714_j26963804685126_1_alg».proof.Proof.Gen.Kernel.Points
import proofs.«175714_j26963804685126_1_alg».proof.Proof.Gen.Kernel.Frame
import proofs.«175714_j26963804685126_1_alg».proof.Proof.StepsK
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run in each of its three control cases -/

set_option maxHeartbeats 1000000 in
/-- Neither reset: both running blocks are read at what the point before left and updated. -/
theorem runStep (c : Dev nD) (i : grid0.Coords) (arg3 : Memref sig .tc .vmem S8x512x3 .f32) (harg3 : arg3.IsWhole) (arg4 : Memref sig .tc .vmem S8x512x3 .f32) (harg4 : arg4.IsWhole) (arg5 : Memref sig .tc .vmem S8x512 .f32) (harg5 : arg5.IsWhole) (arg6 : Memref sig .tc .vmem S8x4096 .f32) (harg6 : arg6.IsWhole) (hc0 : ¬condRow i) (hc1 : ¬condAll i)
    (x0 : Vec F S8x512x3 .f32) (x1 : Vec F S8x512x3 .f32) (xo2 : Vec F S8x512 .f32) (xo3 : Vec F S8x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (k0_pay6 x0 x1 xo2) ∗ owns (c : Thread nD τ) arg6 fullShare (cyStep i (k0_pay4 x0 x1) xo3)) -∗ K ⟨⟩))
          ⊢ wp frame (wpE (defs₀ (F := F)) Variants.none c none) E (cc0__kernel i arg3 harg3 arg4 harg4 arg5 harg5 arg6 harg6) K := by
    intro E K
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_eq_canon _ _ _ (fun y => ⟨_, List.mem_singleton_self _, View.mem_set_unit_zero z2 Facts₀.inb_S8x512_S8x512_0_0 y⟩)]
      sl_unfold_words
      rw [View.canon_unit_zero z2]
      simp only [View.readAt_eq_ld, harg3.read_unread, harg4.read_unread, harg5.read_unread, View.ld_unit_zero (S := S8x512x3) z3, View.ld_unit_zero (S := S8x512) z2]
    iexists _; isplitr; swap; · iexact H3
    ipureintro
    funext y
    rw [View.read_writes_cons_unit arg6.view _ (k0_off1_inb i) _ [] y rfl]
    unfold cyStep
    sl_unfold_words
    simp only [View.writes_nil, View.readAt_eq_ld, harg3.read_unread, harg4.read_unread, harg6.read_unread, View.ld_unit_zero (S := S8x512x3) z3]
    rfl

set_option maxHeartbeats 1000000 in
/-- The source-to-target block is reset (a new source tile begins), the target-to-source block carried. -/
theorem runRow (c : Dev nD) (i : grid0.Coords) (arg3 : Memref sig .tc .vmem S8x512x3 .f32) (harg3 : arg3.IsWhole) (arg4 : Memref sig .tc .vmem S8x512x3 .f32) (harg4 : arg4.IsWhole) (arg5 : Memref sig .tc .vmem S8x512 .f32) (harg5 : arg5.IsWhole) (arg6 : Memref sig .tc .vmem S8x4096 .f32) (harg6 : arg6.IsWhole) (hc0 : condRow i) (hc1 : ¬condAll i)
    (x0 : Vec F S8x512x3 .f32) (x1 : Vec F S8x512x3 .f32) (xo3 : Vec F S8x4096 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (k0_pay6 x0 x1 (k0_pay5 (F := F))) ∗ owns (c : Thread nD τ) arg6 fullShare (cyStep i (k0_pay4 x0 x1) xo3)) -∗ K ⟨⟩))
          ⊢ wp frame (wpE (defs₀ (F := F)) Variants.none c none) E (cc0__kernel i arg3 harg3 arg4 harg4 arg5 harg5 arg6 harg6) K := by
    intro E K
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_eq_canon _ _ _ (fun y => ⟨_, List.mem_cons_self .., View.mem_set_unit_zero z2 Facts₀.inb_S8x512_S8x512_0_0 y⟩)]
      sl_unfold_words
      rw [View.canon_cons_unit_zero z2]
      simp only [View.readAt_eq_ld, harg3.read_unread, harg4.read_unread, View.ld_unit_zero (S := S8x512x3) z3, View.ld_unit_zero (S := S8x512) z2, View.readCov_unit_zero (S := S8x512) _ z2]
    iexists _; isplitr; swap; · iexact H3
    ipureintro
    funext y
    rw [View.read_writes_cons_unit arg6.view _ (k0_off1_inb i) _ [] y rfl]
    unfold cyStep
    sl_unfold_words
    simp only [View.writes_nil, View.readAt_eq_ld, harg3.read_unread, harg4.read_unread, harg6.read_unread, View.ld_unit_zero (S := S8x512x3) z3]
    rfl

set_option maxHeartbeats 1000000 in
/-- Both blocks are reset (a new batch half begins). -/
theorem runReset (c : Dev nD) (i : grid0.Coords) (arg3 : Memref sig .tc .vmem S8x512x3 .f32) (harg3 : arg3.IsWhole) (arg4 : Memref sig .tc .vmem S8x512x3 .f32) (harg4 : arg4.IsWhole) (arg5 : Memref sig .tc .vmem S8x512 .f32) (harg5 : arg5.IsWhole) (arg6 : Memref sig .tc .vmem S8x4096 .f32) (harg6 : arg6.IsWhole) (hc0 : condRow i) (hc1 : condAll i)
    (x0 : Vec F S8x512x3 .f32) (x1 : Vec F S8x512x3 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (k0_pay6 x0 x1 (k0_pay5 (F := F))) ∗ owns (c : Thread nD τ) arg6 fullShare (cyStep i (k0_pay4 x0 x1) (k0_pay1 (F := F)))) -∗ K ⟨⟩))
          ⊢ wp frame (wpE (defs₀ (F := F)) Variants.none c none) E (cc0__kernel i arg3 harg3 arg4 harg4 arg5 harg5 arg6 harg6) K := by
    intro E K
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_eq_canon _ _ _ (fun y => ⟨_, List.mem_cons_self .., View.mem_set_unit_zero z2 Facts₀.inb_S8x512_S8x512_0_0 y⟩)]
      sl_unfold_words
      rw [View.canon_cons_unit_zero z2]
      simp only [View.readAt_eq_ld, harg3.read_unread, harg4.read_unread, View.ld_unit_zero (S := S8x512x3) z3, View.ld_unit_zero (S := S8x512) z2, View.readCov_unit_zero (S := S8x512) _ z2]
    iexists _; isplitr; swap; · iexact H3
    ipureintro
    funext y
    rw [View.read_writes_cons_unit arg6.view _ (k0_off1_inb i) _ _ y rfl]
    unfold cyStep
    sl_unfold_words
    simp only [View.readAt_eq_ld, harg3.read_unread, harg4.read_unread, View.ld_unit_zero (S := S8x512x3) z3]
    have e : View.read (Elt F) arg6.view (arg6.view.writes (Elt F) arg6.view.junk
        [(⟨Rect.unit ![0, 0] ![8, 4096] Facts₀.inb_S8x4096_S8x4096_0_0, k0_pay1 (F := F)⟩ : View.Piece (Elt F) S8x4096 .f32)]) = k0_pay1 (F := F) := by
      rw [View.read_writes_eq_canon _ _ _ (fun y => ⟨_, List.mem_singleton_self _, View.mem_set_unit_zero z2' Facts₀.inb_S8x4096_S8x4096_0_0 y⟩),
        View.canon_unit_zero z2']
    rw [e]
    rfl

end Cert.Kernel.Hand

end
-- ==== Proof.FrameK.lean ====
/-
  The frame of the program around its one pipelined region, with the contents of both output staging buffers named
  point by point (`cxAt`, `cyAt`).
  Before the body at a point each input buffer holds its tile of the argument array. The source-to-target buffer is
  written back after every eighth point, so at a point not divisible by 8 it still holds what the point before left;
  the target-to-source buffer is written back after every 64th point, so the same holds at a point not divisible by 64.
  At the other points the buffer is fresh, and there the body overwrites it with +∞ before reading it. Hence at every
  point one of the three runs of the body applies, and leaves the two buffers at `cxAt` and `cyAt` of that point.
-/
import proofs.«175714_j26963804685126_1_alg».proof.Proof.Gen.Kernel.Launch
import proofs.«175714_j26963804685126_1_alg».proof.Proof.Gen.Kernel.Skeleton
import proofs.«175714_j26963804685126_1_alg».proof.Proof.Gen.Kernel.Points
import proofs.«175714_j26963804685126_1_alg».proof.Proof.Gen.Kernel.Frame
import proofs.«175714_j26963804685126_1_alg».proof.Proof.RunsK
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev ms0 (t : Fin cfg0.N) : Memref sig .tc .vmem S8x512x3 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S8x512x3 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S8x512 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S8x4096 .f32 := win0_3.stage (cfg0.slots t 3)
abbrev hs3 (t : Fin cfg0.N) : (ms3 t).IsWhole := Facts₀.hstage0_3 ((cfg0.slots t 3).cast Facts₀.nbuf0_3)

/-! ## The proof data -/

/-- On core `c`: the arrays as the region finds them; after the body at point `t` each input buffer at its tile, the
    two output buffers at the running blocks `cxAt` and `cyAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cxAt m c t.val t.isLt
    | ⟨3, _⟩ => cyAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = cxAt m c t.val t.isLt := by dsimp only [dats]
theorem after3 (c : Dev nD) (t : Fin cfg0.N) : (dats m 0 c).after 3 t = cyAt m c t.val t.isLt := by dsimp only [dats]

/-- Each input buffer holds its tile at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a point not divisible by 8 the source-to-target buffer holds what the point before left: that point did not
    write it back. -/
theorem before2_step (c : Dev nD) (t : Fin cfg0.N) (h0 : ¬t.val % 8 = 0) (d) :
    (dats m 0 c).before 2 t d = cxAt m c (t.val - 1) (Nat.lt_of_le_of_lt (Nat.sub_le _ _) t.isLt) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- At a point not divisible by 64 the target-to-source buffer holds what the point before left. -/
theorem before3_step (c : Dev nD) (t : Fin cfg0.N) (h1 : ¬t.val % 64 = 0) (d) :
    (dats m 0 c).before 3 t d = cyAt m c (t.val - 1) (Nat.lt_of_le_of_lt (Nat.sub_le _ _) t.isLt) := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point: the point's residues modulo 8 and 64 say which of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 128 := lt_of_lt_of_eq t.isLt (show cfg0.N = 128 from N_0)
  by_cases h0 : t.val % 8 = 0
  · by_cases h1 : t.val % 64 = 0
    · rw [cxAt_reset m c t h0, cyAt_reset m c t h1]
      iintro ⟨HΦ, Ho, ⟨%d0, H0⟩, ⟨%d1, H1⟩, ⟨%d2, H2⟩, ⟨%d3, H3⟩⟩
      iapply ((runReset c (grid0.coords t) _ _ _ _ _ _ _ _ ((hcondRow t).mpr h0) ((hcondAll t).mpr h1) (iblk m c 0 t) (iblk m c 1 t)) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [cxAt_reset m c t h0, cyAt_step m c t h1]
      simp only [before3_step m c t h1]
      iintro ⟨HΦ, Ho, ⟨%d0, H0⟩, ⟨%d1, H1⟩, ⟨%d2, H2⟩, ⟨%d3, H3⟩⟩
      iapply ((runRow c (grid0.coords t) _ _ _ _ _ _ _ _ ((hcondRow t).mpr h0) (fun h => h1 ((hcondAll t).mp h)) (iblk m c 0 t) (iblk m c 1 t) (cyAt m c (t.val - 1) (Nat.lt_of_le_of_lt (Nat.sub_le _ _) t.isLt))) Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · by_cases h1 : t.val % 64 = 0
    · exfalso; omega
    · rw [cxAt_step m c t h0, cyAt_step m c t h1]
      simp only [before2_step m c t h0, before3_step m c t h1]
      iintro ⟨HΦ, Ho, ⟨%d0, H0⟩, ⟨%d1, H1⟩, ⟨%d2, H2⟩, ⟨%d3, H3⟩⟩
      iapply ((runStep c (grid0.coords t) _ _ _ _ _ _ _ _ (fun h => h0 ((hcondRow t).mp h)) (fun h => h1 ((hcondAll t).mp h)) (iblk m c 0 t) (iblk m c 1 t) (cxAt m c (t.val - 1) (Nat.lt_of_le_of_lt (Nat.sub_le _ _) t.isLt)) (cyAt m c (t.val - 1) (Nat.lt_of_le_of_lt (Nat.sub_le _ _) t.isLt))) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the pipeline at what
    the write-backs of the named blocks make of it, and every other unscoped buffer as the host lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.StepsKI.lean ====
/-
  The pairwise-distance kernel keeps two running blocks in its output staging buffers while it sweeps the grid
  (batch half, source tile, target tile; the target tile fastest):
    * the source-to-target block (8 × 512): for each source point of the current tile the least distance found so far
      over the target tiles visited; it starts anew (from +∞) whenever the target tile index is 0;
    * the target-to-source block (8 × 4096): for each target point of the whole batch half the least distance found so
      far over the source tiles visited; it starts anew only when both tile indices are 0, and each point touches just
      the 512 columns of its own target tile.
  This module names the two branch conditions over the grid, one point's effect on each block, and by recursion on the
  point what each block holds after every point.
-/
import proofs.«175714_j26963804685126_1_alg».proof.Proof.Gen.KernelIdeal.Launch
import proofs.«175714_j26963804685126_1_alg».proof.Proof.Gen.KernelIdeal.Skeleton
import proofs.«175714_j26963804685126_1_alg».proof.Proof.Gen.KernelIdeal.Points
import proofs.«175714_j26963804685126_1_alg».proof.Proof.Gen.KernelIdeal.Frame
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The two branch conditions of the body, over the grid -/

/-- The first conditional's condition: the target tile index is 0. -/
abbrev condRow (i : grid0.Coords) : Prop :=
  (Scalar.cmpi .ne (Scalar.extui (Scalar.cmpi .eq (BitVec.ofNat 32 (i 2).val) 0#32)) 0#32) = 1#1
/-- It holds at the points divisible by 8. -/
theorem hcondRow : ∀ t : Fin cfg0.N, condRow (grid0.coords t) ↔ t.val % 8 = 0 :=
  (by decide +kernel : ∀ t : Fin grid0.N, condRow (grid0.coords t) ↔ t.val % 8 = 0)

/-- The second conditional's condition: both tile indices are 0. -/
abbrev condAll (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points divisible by 64. -/
theorem hcondAll : ∀ t : Fin cfg0.N, condAll (grid0.coords t) ↔ t.val % 64 = 0 :=
  (by decide +kernel : ∀ t : Fin grid0.N, condAll (grid0.coords t) ↔ t.val % 64 = 0)

theorem z2 : (![0, 0] : Fin S8x512.rank → ℕ) = fun _ => 0 := by funext a; fin_cases a <;> rfl
theorem z2' : (![0, 0] : Fin S8x4096.rank → ℕ) = fun _ => 0 := by funext a; fin_cases a <;> rfl
theorem z3 : (![0, 0, 0] : Fin S8x512x3.rank → ℕ) = fun _ => 0 := by funext a; fin_cases a <;> rfl

/-! ## What one point does to the target-to-source block -/

/-- The 8 × 512 column slice of the target-to-source block that the point at coordinates `i` updates. -/
abbrev sliceRect (i : grid0.Coords) : Rect S8x4096 := Rect.unit (s := S8x4096) (k0_off1 i) S8x512.size (k0_off1_inb i)

/-- The target-to-source block after a point: inside the point's column slice the minimum of what was there and the
    point's column minima `v`, elsewhere unchanged. -/
def cyStep (i : grid0.Coords) (v : FVec F S8x512 .f32) (base : Vec F S8x4096 .f32) : Vec F S8x4096 .f32 := fun y =>
  if h : ∀ a, k0_off1 i a ≤ (y a).val ∧ (y a).val < k0_off1 i a + S8x512.size a then
    k0_pay2 v (View.ld base (sliceRect i)) (Rect.unitLocal (s := S8x4096) (off := k0_off1 i) (size := S8x512.size) y h)
  else base y

/-! ## What the two blocks hold after each point -/

/-- The source-to-target block after point `n`: the row minima of the point's distance tile, folded into +∞ at a point
    divisible by 8 and into what the point before left otherwise. -/
def cxAt (c : Dev nD) : (n : ℕ) → n < cfg0.N → Vec F S8x512 .f32
  | 0, hn => k0_pay6 (iblk m c 0 ⟨0, hn⟩) (iblk m c 1 ⟨0, hn⟩) (k0_pay5 (F := F))
  | n + 1, hn => k0_pay6 (iblk m c 0 ⟨n + 1, hn⟩) (iblk m c 1 ⟨n + 1, hn⟩)
      (if (n + 1) % 8 = 0 then k0_pay5 (F := F) else cxAt c n (Nat.lt_of_succ_lt hn))

/-- The target-to-source block after point `n`: the point's column minima folded into its column slice of the all-+∞
    block at a point divisible by 64 and of what the point before left otherwise. -/
def cyAt (c : Dev nD) : (n : ℕ) → n < cfg0.N → Vec F S8x4096 .f32
  | 0, hn => cyStep (grid0.coords ⟨0, hn⟩) (k0_pay4 (iblk m c 0 ⟨0, hn⟩) (iblk m c 1 ⟨0, hn⟩)) (k0_pay1 (F := F))
  | n + 1, hn => cyStep (grid0.coords ⟨n + 1, hn⟩) (k0_pay4 (iblk m c 0 ⟨n + 1, hn⟩) (iblk m c 1 ⟨n + 1, hn⟩))
      (if (n + 1) % 64 = 0 then k0_pay1 (F := F) else cyAt c n (Nat.lt_of_succ_lt hn))

/-- `cxAt` at a point divisible by 8: a fresh start. -/
theorem cxAt_reset (c : Dev nD) (t : Fin cfg0.N) (h : t.val % 8 = 0) :
    cxAt m c t.val t.isLt = k0_pay6 (iblk m c 0 t) (iblk m c 1 t) (k0_pay5 (F := F)) := by
  obtain ⟨n, hn⟩ := t
  cases n with
  | zero => rfl
  | succ n => exact congrArg (k0_pay6 _ _) (if_pos h)

/-- `cxAt` at any other point: over what the point before left. -/
theorem cxAt_step (c : Dev nD) (t : Fin cfg0.N) (h : ¬t.val % 8 = 0) :
    cxAt m c t.val t.isLt = k0_pay6 (iblk m c 0 t) (iblk m c 1 t)
      (cxAt m c (t.val - 1) (Nat.lt_of_le_of_lt (Nat.sub_le _ _) t.isLt)) := by
  obtain ⟨n, hn⟩ := t
  cases n with
  | zero => exact absurd (Nat.zero_mod _) h
  | succ n => exact congrArg (k0_pay6 _ _) (if_neg h)

/-- `cyAt` at a point divisible by 64: a fresh start. -/
theorem cyAt_reset (c : Dev nD) (t : Fin cfg0.N) (h : t.val % 64 = 0) :
    cyAt m c t.val t.isLt = cyStep (grid0.coords t) (k0_pay4 (iblk m c 0 t) (iblk m c 1 t)) (k0_pay1 (F := F)) := by
  obtain ⟨n, hn⟩ := t
  cases n with
  | zero => rfl
  | succ n => exact congrArg (cyStep _ _) (if_pos h)

/-- `cyAt` at any other point: over what the point before left. -/
theorem cyAt_step (c : Dev nD) (t : Fin cfg0.N) (h : ¬t.val % 64 = 0) :
    cyAt m c t.val t.isLt = cyStep (grid0.coords t) (k0_pay4 (iblk m c 0 t) (iblk m c 1 t))
      (cyAt m c (t.val - 1) (Nat.lt_of_le_of_lt (Nat.sub_le _ _) t.isLt)) := by
  obtain ⟨n, hn⟩ := t
  cases n with
  | zero => exact absurd (Nat.zero_mod _) h
  | succ n => exact congrArg (cyStep _ _) (if_neg h)

end Cert.KernelIdeal.Hand

end
-- ==== Proof.RunsKI.lean ====
/-
  The kernel body run symbolically on whole staging buffers, once per control case. The body loads its source and
  target tiles, forms the distance tile, and then:
    * `runStep`  (neither reset): both running blocks are found at what the point before left, and updated;
    * `runRow`   (target tile index 0, source tile index not 0): the source-to-target block is first overwritten with
      +∞, so its prior contents do not matter; the target-to-source block is carried;
    * `runReset` (both tile indices 0): both blocks are first overwritten with +∞.
  In every case the source-to-target buffer ends at the fold of the tile's row minima into what it held (or +∞), and
  the target-to-source buffer at `cyStep` of what it held (or +∞): a store into a column slice, read back index by
  index as "inside the slice the new value, outside the old one".
-/
import proofs.«175714_j26963804685126_1_alg».proof.Proof.Gen.KernelIdeal.Launch
import proofs.«175714_j26963804685126_1_alg».proof.Proof.Gen.KernelIdeal.Skeleton
import proofs.«175714_j26963804685126_1_alg».proof.Proof.Gen.KernelIdeal.Points
import proofs.«175714_j26963804685126_1_alg».proof.Proof.Gen.KernelIdeal.Frame
import proofs.«175714_j26963804685126_1_alg».proof.Proof.StepsKI
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run in each of its three control cases -/

set_option maxHeartbeats 1000000 in
/-- Neither reset: both running blocks are read at what the point before left and updated. -/
theorem runStep (c : Dev nD) (i : grid0.Coords) (arg3 : Memref sig .tc .vmem S8x512x3 .f32) (harg3 : arg3.IsWhole) (arg4 : Memref sig .tc .vmem S8x512x3 .f32) (harg4 : arg4.IsWhole) (arg5 : Memref sig .tc .vmem S8x512 .f32) (harg5 : arg5.IsWhole) (arg6 : Memref sig .tc .vmem S8x4096 .f32) (harg6 : arg6.IsWhole) (hc0 : ¬condRow i) (hc1 : ¬condAll i)
    (x0 : Vec F S8x512x3 .f32) (x1 : Vec F S8x512x3 .f32) (xo2 : Vec F S8x512 .f32) (xo3 : Vec F S8x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (k0_pay6 x0 x1 xo2) ∗ owns (c : Thread nD τ) arg6 fullShare (cyStep i (k0_pay4 x0 x1) xo3)) -∗ K ⟨⟩))
          ⊢ wp frame (wpE (defs₀ (F := F)) Variants.none c none) E (cc0__kernel i arg3 harg3 arg4 harg4 arg5 harg5 arg6 harg6) K := by
    intro E K
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_eq_canon _ _ _ (fun y => ⟨_, List.mem_singleton_self _, View.mem_set_unit_zero z2 Facts₀.inb_S8x512_S8x512_0_0 y⟩)]
      sl_unfold_words
      rw [View.canon_unit_zero z2]
      simp only [View.readAt_eq_ld, harg3.read_unread, harg4.read_unread, harg5.read_unread, View.ld_unit_zero (S := S8x512x3) z3, View.ld_unit_zero (S := S8x512) z2]
    iexists _; isplitr; swap; · iexact H3
    ipureintro
    funext y
    rw [View.read_writes_cons_unit arg6.view _ (k0_off1_inb i) _ [] y rfl]
    unfold cyStep
    sl_unfold_words
    simp only [View.writes_nil, View.readAt_eq_ld, harg3.read_unread, harg4.read_unread, harg6.read_unread, View.ld_unit_zero (S := S8x512x3) z3]
    rfl

set_option maxHeartbeats 1000000 in
/-- The source-to-target block is reset (a new source tile begins), the target-to-source block carried. -/
theorem runRow (c : Dev nD) (i : grid0.Coords) (arg3 : Memref sig .tc .vmem S8x512x3 .f32) (harg3 : arg3.IsWhole) (arg4 : Memref sig .tc .vmem S8x512x3 .f32) (harg4 : arg4.IsWhole) (arg5 : Memref sig .tc .vmem S8x512 .f32) (harg5 : arg5.IsWhole) (arg6 : Memref sig .tc .vmem S8x4096 .f32) (harg6 : arg6.IsWhole) (hc0 : condRow i) (hc1 : ¬condAll i)
    (x0 : Vec F S8x512x3 .f32) (x1 : Vec F S8x512x3 .f32) (xo3 : Vec F S8x4096 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (k0_pay6 x0 x1 (k0_pay5 (F := F))) ∗ owns (c : Thread nD τ) arg6 fullShare (cyStep i (k0_pay4 x0 x1) xo3)) -∗ K ⟨⟩))
          ⊢ wp frame (wpE (defs₀ (F := F)) Variants.none c none) E (cc0__kernel i arg3 harg3 arg4 harg4 arg5 harg5 arg6 harg6) K := by
    intro E K
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_eq_canon _ _ _ (fun y => ⟨_, List.mem_cons_self .., View.mem_set_unit_zero z2 Facts₀.inb_S8x512_S8x512_0_0 y⟩)]
      sl_unfold_words
      rw [View.canon_cons_unit_zero z2]
      simp only [View.readAt_eq_ld, harg3.read_unread, harg4.read_unread, View.ld_unit_zero (S := S8x512x3) z3, View.ld_unit_zero (S := S8x512) z2, View.readCov_unit_zero (S := S8x512) _ z2]
    iexists _; isplitr; swap; · iexact H3
    ipureintro
    funext y
    rw [View.read_writes_cons_unit arg6.view _ (k0_off1_inb i) _ [] y rfl]
    unfold cyStep
    sl_unfold_words
    simp only [View.writes_nil, View.readAt_eq_ld, harg3.read_unread, harg4.read_unread, harg6.read_unread, View.ld_unit_zero (S := S8x512x3) z3]
    rfl

set_option maxHeartbeats 1000000 in
/-- Both blocks are reset (a new batch half begins). -/
theorem runReset (c : Dev nD) (i : grid0.Coords) (arg3 : Memref sig .tc .vmem S8x512x3 .f32) (harg3 : arg3.IsWhole) (arg4 : Memref sig .tc .vmem S8x512x3 .f32) (harg4 : arg4.IsWhole) (arg5 : Memref sig .tc .vmem S8x512 .f32) (harg5 : arg5.IsWhole) (arg6 : Memref sig .tc .vmem S8x4096 .f32) (harg6 : arg6.IsWhole) (hc0 : condRow i) (hc1 : condAll i)
    (x0 : Vec F S8x512x3 .f32) (x1 : Vec F S8x512x3 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (k0_pay6 x0 x1 (k0_pay5 (F := F))) ∗ owns (c : Thread nD τ) arg6 fullShare (cyStep i (k0_pay4 x0 x1) (k0_pay1 (F := F)))) -∗ K ⟨⟩))
          ⊢ wp frame (wpE (defs₀ (F := F)) Variants.none c none) E (cc0__kernel i arg3 harg3 arg4 harg4 arg5 harg5 arg6 harg6) K := by
    intro E K
    simp only [cc0__kernel_eq_skeleton]; unfold cc0__kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_eq_canon _ _ _ (fun y => ⟨_, List.mem_cons_self .., View.mem_set_unit_zero z2 Facts₀.inb_S8x512_S8x512_0_0 y⟩)]
      sl_unfold_words
      rw [View.canon_cons_unit_zero z2]
      simp only [View.readAt_eq_ld, harg3.read_unread, harg4.read_unread, View.ld_unit_zero (S := S8x512x3) z3, View.ld_unit_zero (S := S8x512) z2, View.readCov_unit_zero (S := S8x512) _ z2]
    iexists _; isplitr; swap; · iexact H3
    ipureintro
    funext y
    rw [View.read_writes_cons_unit arg6.view _ (k0_off1_inb i) _ _ y rfl]
    unfold cyStep
    sl_unfold_words
    simp only [View.readAt_eq_ld, harg3.read_unread, harg4.read_unread, View.ld_unit_zero (S := S8x512x3) z3]
    have e : View.read (Elt F) arg6.view (arg6.view.writes (Elt F) arg6.view.junk
        [(⟨Rect.unit ![0, 0] ![8, 4096] Facts₀.inb_S8x4096_S8x4096_0_0, k0_pay1 (F := F)⟩ : View.Piece (Elt F) S8x4096 .f32)]) = k0_pay1 (F := F) := by
      rw [View.read_writes_eq_canon _ _ _ (fun y => ⟨_, List.mem_singleton_self _, View.mem_set_unit_zero z2' Facts₀.inb_S8x4096_S8x4096_0_0 y⟩),
        View.canon_unit_zero z2']
    rw [e]
    rfl

end Cert.KernelIdeal.Hand

end
-- ==== Proof.FrameKI.lean ====
/-
  The frame of the program around its one pipelined region, with the contents of both output staging buffers named
  point by point (`cxAt`, `cyAt`).
  Before the body at a point each input buffer holds its tile of the argument array. The source-to-target buffer is
  written back after every eighth point, so at a point not divisible by 8 it still holds what the point before left;
  the target-to-source buffer is written back after every 64th point, so the same holds at a point not divisible by 64.
  At the other points the buffer is fresh, and there the body overwrites it with +∞ before reading it. Hence at every
  point one of the three runs of the body applies, and leaves the two buffers at `cxAt` and `cyAt` of that point.
-/
import proofs.«175714_j26963804685126_1_alg».proof.Proof.Gen.KernelIdeal.Launch
import proofs.«175714_j26963804685126_1_alg».proof.Proof.Gen.KernelIdeal.Skeleton
import proofs.«175714_j26963804685126_1_alg».proof.Proof.Gen.KernelIdeal.Points
import proofs.«175714_j26963804685126_1_alg».proof.Proof.Gen.KernelIdeal.Frame
import proofs.«175714_j26963804685126_1_alg».proof.Proof.RunsKI
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev ms0 (t : Fin cfg0.N) : Memref sig .tc .vmem S8x512x3 .f32 := win0_0.stage (cfg0.slots t 0)
abbrev hs0 (t : Fin cfg0.N) : (ms0 t).IsWhole := Facts₀.hstage0_0 ((cfg0.slots t 0).cast Facts₀.nbuf0_0)
abbrev ms1 (t : Fin cfg0.N) : Memref sig .tc .vmem S8x512x3 .f32 := win0_1.stage (cfg0.slots t 1)
abbrev hs1 (t : Fin cfg0.N) : (ms1 t).IsWhole := Facts₀.hstage0_1 ((cfg0.slots t 1).cast Facts₀.nbuf0_1)
abbrev ms2 (t : Fin cfg0.N) : Memref sig .tc .vmem S8x512 .f32 := win0_2.stage (cfg0.slots t 2)
abbrev hs2 (t : Fin cfg0.N) : (ms2 t).IsWhole := Facts₀.hstage0_2 ((cfg0.slots t 2).cast Facts₀.nbuf0_2)
abbrev ms3 (t : Fin cfg0.N) : Memref sig .tc .vmem S8x4096 .f32 := win0_3.stage (cfg0.slots t 3)
abbrev hs3 (t : Fin cfg0.N) : (ms3 t).IsWhole := Facts₀.hstage0_3 ((cfg0.slots t 3).cast Facts₀.nbuf0_3)

/-! ## The proof data -/

/-- On core `c`: the arrays as the region finds them; after the body at point `t` each input buffer at its tile, the
    two output buffers at the running blocks `cxAt` and `cyAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => cxAt m c t.val t.isLt
    | ⟨3, _⟩ => cyAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = cxAt m c t.val t.isLt := by dsimp only [dats]
theorem after3 (c : Dev nD) (t : Fin cfg0.N) : (dats m 0 c).after 3 t = cyAt m c t.val t.isLt := by dsimp only [dats]

/-- Each input buffer holds its tile at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a point not divisible by 8 the source-to-target buffer holds what the point before left: that point did not
    write it back. -/
theorem before2_step (c : Dev nD) (t : Fin cfg0.N) (h0 : ¬t.val % 8 = 0) (d) :
    (dats m 0 c).before 2 t d = cxAt m c (t.val - 1) (Nat.lt_of_le_of_lt (Nat.sub_le _ _) t.isLt) := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]

/-- At a point not divisible by 64 the target-to-source buffer holds what the point before left. -/
theorem before3_step (c : Dev nD) (t : Fin cfg0.N) (h1 : ¬t.val % 64 = 0) (d) :
    (dats m 0 c).before 3 t d = cyAt m c (t.val - 1) (Nat.lt_of_le_of_lt (Nat.sub_le _ _) t.isLt) := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point: the point's residues modulo 8 and 64 say which of the three runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  have hN : t.val < 128 := lt_of_lt_of_eq t.isLt (show cfg0.N = 128 from N_0)
  by_cases h0 : t.val % 8 = 0
  · by_cases h1 : t.val % 64 = 0
    · rw [cxAt_reset m c t h0, cyAt_reset m c t h1]
      iintro ⟨HΦ, Ho, ⟨%d0, H0⟩, ⟨%d1, H1⟩, ⟨%d2, H2⟩, ⟨%d3, H3⟩⟩
      iapply ((runReset c (grid0.coords t) _ _ _ _ _ _ _ _ ((hcondRow t).mpr h0) ((hcondAll t).mpr h1) (iblk m c 0 t) (iblk m c 1 t)) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [cxAt_reset m c t h0, cyAt_step m c t h1]
      simp only [before3_step m c t h1]
      iintro ⟨HΦ, Ho, ⟨%d0, H0⟩, ⟨%d1, H1⟩, ⟨%d2, H2⟩, ⟨%d3, H3⟩⟩
      iapply ((runRow c (grid0.coords t) _ _ _ _ _ _ _ _ ((hcondRow t).mpr h0) (fun h => h1 ((hcondAll t).mp h)) (iblk m c 0 t) (iblk m c 1 t) (cyAt m c (t.val - 1) (Nat.lt_of_le_of_lt (Nat.sub_le _ _) t.isLt))) Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · by_cases h1 : t.val % 64 = 0
    · exfalso; omega
    · rw [cxAt_step m c t h0, cyAt_step m c t h1]
      simp only [before2_step m c t h0, before3_step m c t h1]
      iintro ⟨HΦ, Ho, ⟨%d0, H0⟩, ⟨%d1, H1⟩, ⟨%d2, H2⟩, ⟨%d3, H3⟩⟩
      iapply ((runStep c (grid0.coords t) _ _ _ _ _ _ _ _ (fun h => h0 ((hcondRow t).mp h)) (fun h => h1 ((hcondAll t).mp h)) (iblk m c 0 t) (iblk m c 1 t) (cxAt m c (t.val - 1) (Nat.lt_of_le_of_lt (Nat.sub_le _ _) t.isLt)) (cyAt m c (t.val - 1) (Nat.lt_of_le_of_lt (Nat.sub_le _ _) t.isLt))) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the pipeline at what
    the write-backs of the named blocks make of it, and every other unscoped buffer as the host lines after the region
    leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.ChamferSpec.lean ====
/-
  Chamfer distance between two point clouds, as functions of the argument arrays over the extended reals.
  For batch b, a source point n and a target point m the squared distance is taken in its expanded form
    |p|² + |t|² − 2·(p · t),
  each of the three terms a sum over the three coordinates. The source-to-target term of a source point is the infimum
  of that expression over all target points; the target-to-source term of a target point the infimum over all source
  points. Infima over a finite index type are written with `⨅`; over the extended reals the empty infimum is +∞, which
  is also the value both programs start their minimum reductions from.
-/
import Idealize.ShloMosaic.PureOps.Ideal
import Idealize.ShloMosaic.PureOps.Ideal.Laws
import Idealize.ShloMosaic.Lib.ValueIdx

noncomputable section

namespace Chamfer

open Idealize.ShloMosaic Idealize.ShloMosaic.ValueIdx

/-- The point clouds: 16 batches of 4096 points of 3 coordinates. -/
abbrev SP : Shape := ⟨3, ![16, 4096, 3]⟩
/-- One value per batch and point. -/
abbrev SO : Shape := ⟨2, ![16, 4096]⟩

/-- The factor 2 of the expansion, as the word both programs spell it with. -/
abbrev two : EReal := Ideal.ofBits .f32 0x40000000#32

/-- |a|² for point `n` of batch `b`. -/
def sq (A : SP.Idx → EReal) (b : Fin 16) (n : Fin 4096) : EReal := ∑ d : Fin 3, A (ix3 b n d) * A (ix3 b n d)

/-- p · t for source point `n` and target point `k` of batch `b`. -/
def dot (A B : SP.Idx → EReal) (b : Fin 16) (n k : Fin 4096) : EReal := ∑ d : Fin 3, A (ix3 b n d) * B (ix3 b k d)

/-- The expanded squared distance between source point `n` and target point `k` of batch `b`. -/
def dist (A B : SP.Idx → EReal) (b : Fin 16) (n k : Fin 4096) : EReal := (sq A b n + sq B b k) - two * dot A B b n k

/-- Source-to-target: for each source point the least distance to a target point. -/
def chamX (A B : SP.Idx → EReal) : SO.Idx → EReal := fun j => ⨅ k : Fin 4096, dist A B (j 0) (j 1) k

/-- Target-to-source: for each target point the least distance to a source point. -/
def chamY (A B : SP.Idx → EReal) : SO.Idx → EReal := fun j => ⨅ n : Fin 4096, dist A B (j 0) n (j 1)

/-- A fold of `min` from +∞ over a whole finite index type is the infimum. -/
theorem fold_min_top_eq_iInf {ι : Type} [Fintype ι] (f : ι → EReal) :
    (Finset.univ : Finset ι).fold min ⊤ f = ⨅ i, f i := by
  refine le_antisymm (le_iInf fun i => ?_) ?_
  · exact (Finset.fold_min_le (s := Finset.univ) (f := f) (b := ⊤) (c := f i)).mpr (Or.inr ⟨i, Finset.mem_univ i, le_rfl⟩)
  · exact (Finset.le_fold_min _).mpr ⟨le_top, fun i _ => iInf_le f i⟩

end Chamfer

end
-- ==== Proof.PayloadKI.lean ====
/-
  The body's arithmetic read entry by entry over the extended reals. For a source tile x0 and a target tile x1 (8
  batches × 512 points × 3 coordinates each) the distance tile at (b, n, k) is |x0(b,n)|² + |x1(b,k)|² − 2·x0(b,n)·x1(b,k),
  the three terms sums over the coordinates; its row minima (over k) feed the source-to-target block, its column minima
  (over n) the target-to-source block; both reductions start from +∞, so each is an infimum over 512 entries.
-/
import proofs.«175714_j26963804685126_1_alg».proof.Proof.Gen.KernelIdeal.Skeleton
import proofs.«175714_j26963804685126_1_alg».proof.Proof.ChamferSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

/-- The distance tile of a source tile and a target tile. -/
def tileDist (x0 x1 : Vec Ideal S8x512x3 .f32) (b : Fin 8) (n k : Fin 512) : EReal :=
  ((∑ d : Fin 3, x0 (ix3 b n d) * x0 (ix3 b n d)) + ∑ d : Fin 3, x1 (ix3 b k d) * x1 (ix3 b k d))
    - Chamfer.two * ∑ d : Fin 3, x0 (ix3 b n d) * x1 (ix3 b k d)

/-- +∞'s word. -/
private theorem ofBits_inf : Ideal.ofBits .f32 0x7F800000#32 = ⊤ := by simp [Ideal.ofBits, Ideal.ieee]

/-- The transposed target tile at (b, d, k) is the target tile at (b, k, d). -/
private theorem tr_apply (x1 : Vec Ideal S8x512x3 .f32) (h : S8x512x3.Transposes [0, 2, 1] S8x3x512) (b : Fin 8) (d : Fin 3) (k : Fin 512) :
    transpose S8x3x512 [0, 2, 1] x1 h (ix3 b d k) = x1 (ix3 b k d) :=
  transpose_ix3_021_apply x1 h b d k

/-- The squared norm of a source point: the lane sum of the squares over the three coordinates. -/
private theorem sq0_apply (x : Vec Ideal S8x512x3 .f32) (h : S8x512x3.Reduces [2] S8x512) (hφ : FKind.Formats .f32)
    (hacc : (0x00000000#32 : BitVec 32) = FKind.add.neutral .f32 hφ) (b : Fin 8) (n : Fin 512) :
    multiReduction (F := Ideal) .add [2] S8x512 (mulf x x) 0x00000000#32 h hφ hacc (ix2 b n)
      = ∑ d : Fin 3, x (ix3 b n d) * x (ix3 b n d) := by
  refine (Ideal.multiReduction_add_single _ _ h hφ hacc (ix2 b n)).trans ?_
  refine Finset.sum_congr rfl fun d _ => ?_
  have e : h.lift (ix2 b n) d = ix3 b n d := by
    funext a
    match a with
    | ⟨0, _⟩ => exact Fin.ext rfl
    | ⟨1, _⟩ => exact Fin.ext rfl
    | ⟨2, _⟩ => exact Fin.ext rfl
  rw [e]
  rfl

/-- The squared norm of a target point, summed over the middle axis of the transposed tile. -/
private theorem sq1_apply (y : FVec Ideal S8x3x512 .f32) (h : S8x3x512.Reduces [1] S8x512) (hφ : FKind.Formats .f32)
    (hacc : (0x00000000#32 : BitVec 32) = FKind.add.neutral .f32 hφ) (b : Fin 8) (k : Fin 512) :
    multiReduction (F := Ideal) .add [1] S8x512 (mulf y y) 0x00000000#32 h hφ hacc (ix2 b k)
      = ∑ d : Fin 3, y (ix3 b d k) * y (ix3 b d k) := by
  refine (Ideal.multiReduction_add_single _ _ h hφ hacc (ix2 b k)).trans ?_
  refine Finset.sum_congr rfl fun d _ => ?_
  have e : h.lift (ix2 b k) d = ix3 b d k := by
    funext a
    match a with
    | ⟨0, _⟩ => exact Fin.ext rfl
    | ⟨1, _⟩ => exact Fin.ext rfl
    | ⟨2, _⟩ => exact Fin.ext rfl
  rw [e]
  rfl

section Layout
variable {α : Type}

/-- A value per (b, n) viewed as a column: a unit axis appended. -/
private theorem cast_col (v : S8x512.Idx → α) (h : S8x512.ShapeCasts S8x512x1) (b : Fin 8) (n : Fin 512) (z : Fin 1) :
    shapeCast S8x512x1 v h (ix3 b n z) = v (ix2 b n) :=
  shapeCast_apply v h _ _ (by
    have hz : z.val = 0 := by omega
    rw [Shape.rowMajor_val_three, Shape.rowMajor_val_two]
    show b.val * 512 + n.val = (b.val * 512 + n.val) * 1 + z.val
    rw [hz, Nat.mul_one, Nat.add_zero])

/-- A value per (b, k) viewed as a row: a unit axis inserted in the middle. -/
private theorem cast_row (v : S8x512.Idx → α) (h : S8x512.ShapeCasts S8x1x512) (b : Fin 8) (z : Fin 1) (k : Fin 512) :
    shapeCast S8x1x512 v h (ix3 b z k) = v (ix2 b k) :=
  shapeCast_apply v h _ _ (by
    have hz : z.val = 0 := by omega
    rw [Shape.rowMajor_val_three, Shape.rowMajor_val_two]
    show b.val * 512 + k.val = (b.val * 1 + z.val) * 512 + k.val
    rw [hz, Nat.mul_one, Nat.add_zero])

/-- Column c of a source tile, at (b, n). -/
private theorem slice_col (x : S8x512x3.Idx → α) (c : Nat) (hc : c < 3) (h : S8x512x3.Slices ![0, 0, c] S8x512x1)
    (b : Fin 8) (n : Fin 512) (z : Fin 1) :
    extractStridedSlice S8x512x1 ![0, 0, c] x h (ix3 b n z) = x (ix3 b n ⟨c, hc⟩) :=
  extractStridedSlice_apply _ x h _ _ (fun ax => by
    match ax with
    | ⟨0, _⟩ => exact (Nat.zero_add _).symm
    | ⟨1, _⟩ => exact (Nat.zero_add _).symm
    | ⟨2, _⟩ =>
      have hz : z.val = 0 := by omega
      show c = c + z.val
      rw [hz, Nat.add_zero])

/-- Row c of a transposed target tile, at (b, k). -/
private theorem slice_row (y : S8x3x512.Idx → α) (c : Nat) (hc : c < 3) (h : S8x3x512.Slices ![0, c, 0] S8x1x512)
    (b : Fin 8) (z : Fin 1) (k : Fin 512) :
    extractStridedSlice S8x1x512 ![0, c, 0] y h (ix3 b z k) = y (ix3 b ⟨c, hc⟩ k) :=
  extractStridedSlice_apply _ y h _ _ (fun ax => by
    match ax with
    | ⟨0, _⟩ => exact (Nat.zero_add _).symm
    | ⟨1, _⟩ =>
      have hz : z.val = 0 := by omega
      show c = c + z.val
      rw [hz, Nat.add_zero]
    | ⟨2, _⟩ => exact (Nat.zero_add _).symm)

/-- A column spread along the last axis reads its entry at (b, n). -/
private theorem bc_col (v : S8x512x1.Idx → α) (h : S8x512x1.Broadcasts S8x512x512) (b : Fin 8) (n k : Fin 512) :
    broadcastTo S8x512x512 v h (ix3 b n k) = v (ix3 b n (0 : Fin 1)) :=
  broadcastTo_apply v h _ _ (fun ax => by
    match ax with
    | ⟨0, _⟩ => rfl
    | ⟨1, _⟩ => rfl
    | ⟨2, _⟩ => rfl)

/-- A row spread along the middle axis reads its entry at (b, k). -/
private theorem bc_row (v : S8x1x512.Idx → α) (h : S8x1x512.Broadcasts S8x512x512) (b : Fin 8) (n k : Fin 512) :
    broadcastTo S8x512x512 v h (ix3 b n k) = v (ix3 b (0 : Fin 1) k) :=
  broadcastTo_apply v h _ _ (fun ax => by
    match ax with
    | ⟨0, _⟩ => rfl
    | ⟨1, _⟩ => rfl
    | ⟨2, _⟩ => rfl)

end Layout

/-- One coordinate's product term: the source tile's column c spread along the target axis times the transposed
    target tile's row c spread along the source axis. -/
private theorem prod_apply (x : Vec Ideal S8x512x3 .f32) (y : FVec Ideal S8x3x512 .f32) (c : Nat) (hc : c < 3)
    (hs1 : S8x512x3.Slices ![0, 0, c] S8x512x1) (hs2 : S8x3x512.Slices ![0, c, 0] S8x1x512)
    (hb1 : S8x512x1.Broadcasts S8x512x512) (hb2 : S8x1x512.Broadcasts S8x512x512) (b : Fin 8) (n k : Fin 512) :
    mulf (F := Ideal) (φ := .f32) (broadcastTo S8x512x512 (extractStridedSlice S8x512x1 ![0, 0, c] x hs1) hb1)
        (broadcastTo S8x512x512 (extractStridedSlice S8x1x512 ![0, c, 0] y hs2) hb2) (ix3 b n k)
      = x (ix3 b n ⟨c, hc⟩) * y (ix3 b ⟨c, hc⟩ k) := by
  refine (mulf_apply _ _ _).trans ?_
  refine congrArg₂ (fun p q : EReal => p * q) ?_ ?_
  · exact (bc_col _ hb1 b n k).trans (slice_col x c hc hs1 b n 0)
  · exact (bc_row _ hb2 b n k).trans (slice_row y c hc hs2 b 0 k)

/-- The two norms spread over the tile and added. -/
private theorem norms_apply (p q : FVec Ideal S8x512 .f32) (hc1 : S8x512.ShapeCasts S8x512x1) (hc2 : S8x512.ShapeCasts S8x1x512)
    (hb1 : S8x512x1.Broadcasts S8x512x512) (hb2 : S8x1x512.Broadcasts S8x512x512) (b : Fin 8) (n k : Fin 512) :
    addf (F := Ideal) (φ := .f32) (broadcastTo S8x512x512 (shapeCast S8x512x1 p hc1) hb1)
        (broadcastTo S8x512x512 (shapeCast S8x1x512 q hc2) hb2) (ix3 b n k)
      = p (ix2 b n) + q (ix2 b k) := by
  refine (addf_apply _ _ _).trans ?_
  refine congrArg₂ (fun s t : EReal => s + t) ?_ ?_
  · exact (bc_col _ hb1 b n k).trans (cast_col p hc1 b n 0)
  · exact (bc_row _ hb2 b n k).trans (cast_row q hc2 b 0 k)

theorem pay3_apply (x0 x1 : Vec Ideal S8x512x3 .f32) (b : Fin 8) (n k : Fin 512) :
    k0_pay3 (F := Ideal) x0 x1 (ix3 b n k) = tileDist x0 x1 b n k := by
  unfold k0_pay3
  dsimp only
  refine (subf_apply _ _ _).trans ?_
  unfold tileDist
  refine congrArg₂ (fun p q : EReal => p - q) ?_ ?_
  · -- the two squared norms
    refine (norms_apply _ _ _ _ _ _ b n k).trans ?_
    refine congrArg₂ (fun s t : EReal => s + t) (sq0_apply x0 _ _ _ b n) ?_
    refine (sq1_apply _ _ _ _ b k).trans ?_
    refine Finset.sum_congr rfl fun d _ => ?_
    exact congrArg₂ (fun s t : EReal => s * t) (tr_apply x1 _ b d k) (tr_apply x1 _ b d k)
  · -- twice the inner product
    refine (mulf_apply _ _ _).trans ?_
    refine congrArg₂ (fun p q : EReal => p * q) rfl ?_
    refine (addf_apply _ _ _).trans ?_
    refine Eq.trans ?_ (Fin.sum_univ_three fun d : Fin 3 => x0 (ix3 b n d) * x1 (ix3 b k d)).symm
    refine congrArg₂ (fun s t : EReal => s + t) ?_ ?_
    · refine (addf_apply _ _ _).trans ?_
      refine congrArg₂ (fun s t : EReal => s + t) ?_ ?_
      · exact (prod_apply x0 _ 0 (by decide) _ _ _ _ b n k).trans
          (congrArg (fun t : EReal => x0 (ix3 b n 0) * t) (tr_apply x1 _ b 0 k))
      · exact (prod_apply x0 _ 1 (by decide) _ _ _ _ b n k).trans
          (congrArg (fun t : EReal => x0 (ix3 b n 1) * t) (tr_apply x1 _ b 1 k))
    · exact (prod_apply x0 _ 2 (by decide) _ _ _ _ b n k).trans
        (congrArg (fun t : EReal => x0 (ix3 b n 2) * t) (tr_apply x1 _ b 2 k))

/-- A minimum reduction over one axis: the fold of min from the accumulator's value over that axis's coordinates. -/
private theorem min_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The column minima of a tile: from +∞, the infimum over the source axis. -/
private theorem colmin_apply (src : FVec Ideal S8x512x512 .f32) (h : S8x512x512.Reduces [1] S8x512) (hφ : FKind.Formats .f32)
    (hacc : (0x7F800000#32 : BitVec 32) = FKind.minimumf.neutral .f32 hφ) (b : Fin 8) (k : Fin 512) :
    multiReduction (F := Ideal) .minimumf [1] S8x512 src 0x7F800000#32 h hφ hacc (ix2 b k)
      = ⨅ n : Fin 512, src (ix3 b n k) := by
  refine (min_single src _ h hφ hacc (ix2 b k)).trans ?_
  have e : FloatOps.ofBits (F := Ideal) .f32 0x7F800000#32 = (⊤ : EReal) := ofBits_inf
  rw [e]
  refine (Chamfer.fold_min_top_eq_iInf (ι := Fin 512) (src ∘ h.lift (ix2 b k))).trans ?_
  refine iInf_congr fun n => ?_
  have e : h.lift (ix2 b k) n = ix3 b n k := by
    funext a
    match a with
    | ⟨0, _⟩ => exact Fin.ext rfl
    | ⟨1, _⟩ => exact Fin.ext rfl
    | ⟨2, _⟩ => exact Fin.ext rfl
  exact congrArg src e

/-- The row minima of a tile: from +∞, the infimum over the target axis. -/
private theorem rowmin_apply (src : FVec Ideal S8x512x512 .f32) (h : S8x512x512.Reduces [2] S8x512) (hφ : FKind.Formats .f32)
    (hacc : (0x7F800000#32 : BitVec 32) = FKind.minimumf.neutral .f32 hφ) (b : Fin 8) (n : Fin 512) :
    multiReduction (F := Ideal) .minimumf [2] S8x512 src 0x7F800000#32 h hφ hacc (ix2 b n)
      = ⨅ k : Fin 512, src (ix3 b n k) := by
  refine (min_single src _ h hφ hacc (ix2 b n)).trans ?_
  have e : FloatOps.ofBits (F := Ideal) .f32 0x7F800000#32 = (⊤ : EReal) := ofBits_inf
  rw [e]
  refine (Chamfer.fold_min_top_eq_iInf (ι := Fin 512) (src ∘ h.lift (ix2 b n))).trans ?_
  refine iInf_congr fun k => ?_
  have e : h.lift (ix2 b n) k = ix3 b n k := by
    funext a
    match a with
    | ⟨0, _⟩ => exact Fin.ext rfl
    | ⟨1, _⟩ => exact Fin.ext rfl
    | ⟨2, _⟩ => exact Fin.ext rfl
  exact congrArg src e

/-- The column minima: for a target point the least distance over the tile's source points. -/
theorem pay4_apply (x0 x1 : Vec Ideal S8x512x3 .f32) (b : Fin 8) (k : Fin 512) :
    k0_pay4 (F := Ideal) x0 x1 (ix2 b k) = ⨅ n : Fin 512, tileDist x0 x1 b n k := by
  unfold k0_pay4
  dsimp only
  refine (colmin_apply _ _ _ _ b k).trans ?_
  exact iInf_congr fun n => pay3_apply x0 x1 b n k

/-- The row minima folded into what the source-to-target block held. -/
theorem pay6_apply (x0 x1 : Vec Ideal S8x512x3 .f32) (prev : Vec Ideal S8x512 .f32) (b : Fin 8) (n : Fin 512) :
    k0_pay6 (F := Ideal) x0 x1 prev (ix2 b n) = min (prev (ix2 b n)) (⨅ k : Fin 512, tileDist x0 x1 b n k) := by
  unfold k0_pay6
  dsimp only
  refine (minimumf_apply _ _ _).trans ?_
  refine congrArg₂ (fun s t : EReal => min s t) ?_ ?_
  · exact congrFun (shapeCast_self prev _) (ix2 b n)
  · refine (rowmin_apply _ _ _ _ b n).trans ?_
    exact iInf_congr fun k => pay3_apply x0 x1 b n k

theorem pay2_apply (v : FVec Ideal S8x512 .f32) (w : Vec Ideal S8x512 .f32) (j : S8x512.Idx) :
    k0_pay2 (F := Ideal) v w j = min (w j) (v j) := by
  unfold k0_pay2
  refine (minimumf_apply _ _ _).trans ?_
  exact congrArg (fun s : EReal => min s (v j)) (congrFun (shapeCast_self w _) j)

theorem pay5_apply (j : S8x512.Idx) : k0_pay5 (F := Ideal) j = ⊤ := by
  unfold k0_pay5
  exact ofBits_inf

theorem pay1_apply (j : S8x4096.Idx) : k0_pay1 (F := Ideal) j = ⊤ := by
  unfold k0_pay1
  exact ofBits_inf

end Cert.KernelIdeal.Val

end
-- ==== Proof.BlocksKI.lean ====
/-
  Where a grid point's tiles sit in the whole arrays. The grid has 2 · 8 · 8 = 128 points, numbered with the target
  tile fastest: point t has batch half t / 64, source tile (t / 8) % 8 and target tile t % 8. Its source tile is rows
  512·((t / 8) % 8) … of batches 8·(t / 64) …, its target tile rows 512·(t % 8) … of the same batches; the column slice
  of the target-to-source block it updates starts at column 512·(t % 8).
-/
import proofs.«175714_j26963804685126_1_alg».proof.Proof.Gen.KernelIdeal.Launch
import proofs.«175714_j26963804685126_1_alg».proof.Proof.Gen.KernelIdeal.Points
import proofs.«175714_j26963804685126_1_alg».proof.Proof.Gen.KernelIdeal.Frame
import Idealize.ShloMosaic.Lib.ValueIdx
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

theorem N128 : cfg0.N = 128 := N_0

/-- The batch of local batch `b` at point `t`. -/
def gB (t : Fin cfg0.N) (b : Fin 8) : Fin 16 := ⟨8 * (t.val / 64) + b.val, by have := t.isLt; have := N128; omega⟩
/-- The source point of local row `n` at point `t`. -/
def gN (t : Fin cfg0.N) (n : Fin 512) : Fin 4096 := ⟨512 * (t.val / 8 % 8) + n.val, by have := t.isLt; have := N128; omega⟩
/-- The target point of local column `k` at point `t`. -/
def gK (t : Fin cfg0.N) (k : Fin 512) : Fin 4096 := ⟨512 * (t.val % 8) + k.val, by have := t.isLt; have := N128; omega⟩

/-- The column slice a point updates starts at row 0, column 512 · (target tile). -/
theorem off1_eq (t : Fin cfg0.N) : k0_off1 (grid0.coords t) = ![0, 512 * (t.val % 8)] :=
  (by decide +kernel : ∀ t : Fin grid0.N, k0_off1 (grid0.coords t) = ![0, 512 * (t.val % 8)]) t

/-- Window 0's printed index map over the grid: batch half, source tile, no column block. -/
private theorem idx0 : ∀ t : Fin cfg0.N, win0_0.index t (0 : Fin 3) = t.val / 64
    ∧ win0_0.index t (1 : Fin 3) = t.val / 8 % 8 ∧ win0_0.index t (2 : Fin 3) = 0 :=
  (by decide +kernel : ∀ t : Fin grid0.N, _)

/-- Window 1's printed index map over the grid: batch half, target tile, no column block. -/
private theorem idx1 : ∀ t : Fin cfg0.N, win0_1.index t (0 : Fin 3) = t.val / 64
    ∧ win0_1.index t (1 : Fin 3) = t.val % 8 ∧ win0_1.index t (2 : Fin 3) = 0 :=
  (by decide +kernel : ∀ t : Fin grid0.N, _)

/-- The source tile at a point, entry by entry, is the source array at the point's batches and rows. -/
theorem tile0_apply (c : Dev nD) (t : Fin cfg0.N) (b : Fin 8) (n : Fin 512) (d : Fin 3) :
    iblk m c 0 t (ix3 b n d) = V m c main_arg0 (ix3 (gB t b) (gN t n) d) := by
  obtain ⟨e0, e1, e2⟩ := idx0 t
  show V m c main_arg0 (((cfg0.win 0).blk t).view.emb (ix3 b n d)) = V m c main_arg0 _
  congr 1
  funext a; apply Fin.ext
  match a with
  | ⟨0, _⟩ => show win0_0.index t (0 : Fin 3) * 8 + 1 * b.val = 8 * (t.val / 64) + b.val; omega
  | ⟨1, _⟩ => show win0_0.index t (1 : Fin 3) * 512 + 1 * n.val = 512 * (t.val / 8 % 8) + n.val; omega
  | ⟨2, _⟩ => show win0_0.index t (2 : Fin 3) * 3 + 1 * d.val = d.val; omega

/-- The target tile at a point, entry by entry, is the target array at the point's batches and rows. -/
theorem tile1_apply (c : Dev nD) (t : Fin cfg0.N) (b : Fin 8) (k : Fin 512) (d : Fin 3) :
    iblk m c 1 t (ix3 b k d) = V m c main_arg1 (ix3 (gB t b) (gK t k) d) := by
  obtain ⟨e0, e1, e2⟩ := idx1 t
  show V m c main_arg1 (((cfg0.win 1).blk t).view.emb (ix3 b k d)) = V m c main_arg1 _
  congr 1
  funext a; apply Fin.ext
  match a with
  | ⟨0, _⟩ => show win0_1.index t (0 : Fin 3) * 8 + 1 * b.val = 8 * (t.val / 64) + b.val; omega
  | ⟨1, _⟩ => show win0_1.index t (1 : Fin 3) * 512 + 1 * k.val = 512 * (t.val % 8) + k.val; omega
  | ⟨2, _⟩ => show win0_1.index t (2 : Fin 3) * 3 + 1 * d.val = d.val; omega

end Cert.KernelIdeal.Val

end
-- ==== Proof.MinLaws.lean ====
/-
  Infima over an initial segment of 4096 indices, built up block by block. A running minimum that has seen the first j
  blocks of 512 indices holds the infimum over the indices below 512·j; folding in the next block's infimum gives the
  infimum below 512·(j+1); below 0 it is +∞ (the empty infimum) and below 4096 it is the infimum over all indices.
-/
import Mathlib.Order.CompleteLattice.Basic
import Mathlib.Order.ConditionallyCompleteLattice.Basic
import Mathlib.Data.EReal.Basic

noncomputable section

namespace Chamfer

/-- The infimum of `f` over the indices below `B`. -/
def infBelow (f : Fin 4096 → EReal) (B : ℕ) : EReal := ⨅ k : Fin 4096, ⨅ _ : k.val < B, f k

theorem infBelow_zero (f : Fin 4096 → EReal) : infBelow f 0 = ⊤ := by
  -- no index lies below 0, so every inner infimum is over the empty family
  unfold infBelow
  apply le_antisymm le_top
  apply le_iInf; intro k
  apply le_iInf; intro hk
  exact absurd hk (Nat.not_lt_zero _)

/-- Folding in block `j` (indices 512·j … 512·j + 511). -/
theorem infBelow_succ_block (f : Fin 4096 → EReal) (j : ℕ) (hj : j < 8) :
    infBelow f (512 * (j + 1)) = min (infBelow f (512 * j)) (⨅ k' : Fin 512, f ⟨512 * j + k'.val, by have := k'.isLt; omega⟩) := by
  unfold infBelow
  apply le_antisymm
  · -- the infimum below 512·(j+1) is a lower bound of both parts
    apply le_min
    · apply le_iInf; intro k
      apply le_iInf; intro hk
      exact iInf₂_le k (by omega)
    · apply le_iInf; intro k'
      have hk' := k'.isLt
      exact iInf₂_le (⟨512 * j + k'.val, by omega⟩ : Fin 4096)
        (by show 512 * j + k'.val < 512 * (j + 1); omega)
  · -- an index below 512·(j+1) is either below 512·j or sits in block j
    apply le_iInf; intro k
    apply le_iInf; intro hk
    by_cases h : k.val < 512 * j
    · exact (min_le_left _ _).trans (iInf₂_le k h)
    · have hk' : k.val - 512 * j < 512 := by omega
      refine (min_le_right _ _).trans ?_
      refine (iInf_le _ (⟨k.val - 512 * j, hk'⟩ : Fin 512)).trans ?_
      apply le_of_eq
      congr 1
      apply Fin.ext
      show 512 * j + (k.val - 512 * j) = k.val
      omega

theorem infBelow_full (f : Fin 4096 → EReal) (B : ℕ) (h : 4096 ≤ B) : infBelow f B = ⨅ k, f k := by
  -- every index is below 4096 ≤ B, so the side condition is always met
  unfold infBelow
  apply le_antisymm
  · apply le_iInf; intro k
    exact iInf₂_le k (Nat.lt_of_lt_of_le k.isLt h)
  · apply le_iInf; intro k
    apply le_iInf; intro _
    exact iInf_le _ k

end Chamfer

end
-- ==== Proof.InvCxKI.lean ====
/-
  What the source-to-target block holds after every grid point, in closed form over the extended reals.
  After point t (batch half t / 64, source tile (t / 8) % 8, target tile t % 8) its entry (b, n) is the infimum of the
  distance from the source point (batch 8·(t/64) + b, row 512·((t/8) % 8) + n) to the target points below
  512·(t % 8 + 1): the target tiles visited so far in this sweep over the target tiles. This follows by induction on the
  point from one point's effect, a minimum with the tile's row infimum, starting from +∞ at the first target tile. At the
  last target tile, where the block is written back, the infimum is over all 4096 target points.
-/
import proofs.«175714_j26963804685126_1_alg».proof.Proof.StepsKI
import proofs.«175714_j26963804685126_1_alg».proof.Proof.PayloadKI
import proofs.«175714_j26963804685126_1_alg».proof.Proof.BlocksKI
import proofs.«175714_j26963804685126_1_alg».proof.Proof.MinLaws
import proofs.«175714_j26963804685126_1_alg».proof.Proof.ChamferSpec

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- A point's distance tile, entry by entry, is the expanded squared distance between the source point and the target
    point the entry stands for. -/
private theorem tileDist_eq (c : Dev nD) (t : Fin cfg0.N) (b : Fin 8) (n k : Fin 512) :
    tileDist (iblk m c 0 t) (iblk m c 1 t) b n k
      = Chamfer.dist (V m c main_arg0) (V m c main_arg1) (gB t b) (gN t n) (gK t k) := by
  unfold tileDist Chamfer.dist Chamfer.sq Chamfer.dot
  simp only [tile0_apply m c t, tile1_apply m c t]

/-- The row infimum of a point's distance tile is the infimum of the distances to the target points of the point's
    target tile. -/
private theorem rowInf_eq (c : Dev nD) (t : Fin cfg0.N) (b : Fin 8) (n : Fin 512) :
    (⨅ k : Fin 512, tileDist (iblk m c 0 t) (iblk m c 1 t) b n k)
      = ⨅ k' : Fin 512, (fun k => Chamfer.dist (V m c main_arg0) (V m c main_arg1) (gB t b) (gN t n) k)
          ⟨512 * (t.val % 8) + k'.val, by have := k'.isLt; have := Nat.mod_lt t.val (by decide : 0 < 8); omega⟩ := by
  refine iInf_congr fun k' => ?_
  exact tileDist_eq m c t b n k'

/-- Within a sweep over the target tiles the batch half does not change. -/
private theorem gB_pred (t : Fin cfg0.N) (h : ¬t.val % 8 = 0) (b : Fin 8) :
    gB ⟨t.val - 1, Nat.lt_of_le_of_lt (Nat.sub_le _ _) t.isLt⟩ b = gB t b := by
  apply Fin.ext
  show 8 * ((t.val - 1) / 64) + b.val = 8 * (t.val / 64) + b.val
  omega

/-- Within a sweep over the target tiles the source tile does not change. -/
private theorem gN_pred (t : Fin cfg0.N) (h : ¬t.val % 8 = 0) (n : Fin 512) :
    gN ⟨t.val - 1, Nat.lt_of_le_of_lt (Nat.sub_le _ _) t.isLt⟩ n = gN t n := by
  apply Fin.ext
  show 512 * ((t.val - 1) / 8 % 8) + n.val = 512 * (t.val / 8 % 8) + n.val
  omega

/-- The source-to-target block after point `t`. -/
theorem cxAt_eq (c : Dev nD) (t : Fin cfg0.N) (b : Fin 8) (n : Fin 512) :
    Hand.cxAt m c t.val t.isLt (ix2 b n)
      = Chamfer.infBelow (fun k => Chamfer.dist (V m c main_arg0) (V m c main_arg1) (gB t b) (gN t n) k) (512 * (t.val % 8 + 1)) := by
  obtain ⟨j, hj⟩ := t
  induction j using Nat.strong_induction_on with
  | _ j ih =>
    have hlt : j % 8 < 8 := Nat.mod_lt j (by decide)
    by_cases h : j % 8 = 0
    · -- a fresh start: the minimum of +∞ and the row infimum of the first target tile
      rw [Hand.cxAt_reset m c ⟨j, hj⟩ h]
      refine (pay6_apply _ _ _ b n).trans ?_
      rw [pay5_apply, rowInf_eq m c ⟨j, hj⟩ b n,
        Chamfer.infBelow_succ_block _ (j % 8) hlt]
      have e0 : ∀ f : Fin 4096 → EReal, Chamfer.infBelow f (512 * (j % 8)) = ⊤ := fun f => by
        rw [h]; exact Chamfer.infBelow_zero f
      rw [e0]
    · -- otherwise: the minimum of what the point before left and the row infimum of this target tile
      have hj' : j - 1 < cfg0.N := Nat.lt_of_le_of_lt (Nat.sub_le _ _) hj
      have e1 : Hand.cxAt m c (j - 1) hj' (ix2 b n)
          = Chamfer.infBelow (fun k => Chamfer.dist (V m c main_arg0) (V m c main_arg1)
              (gB ⟨j - 1, hj'⟩ b) (gN ⟨j - 1, hj'⟩ n) k) (512 * ((j - 1) % 8 + 1)) :=
        ih (j - 1) (by omega) hj'
      have e2 : 512 * ((j - 1) % 8 + 1) = 512 * (j % 8) := by omega
      rw [gB_pred ⟨j, hj⟩ h b, gN_pred ⟨j, hj⟩ h n, e2] at e1
      rw [Hand.cxAt_step m c ⟨j, hj⟩ h]
      refine (pay6_apply _ _ _ b n).trans ?_
      rw [e1, rowInf_eq m c ⟨j, hj⟩ b n, Chamfer.infBelow_succ_block _ (j % 8) hlt]

/-- At a point whose source-to-target block is written back it holds the source-to-target values of its rows. -/
theorem cxAt_flush (c : Dev nD) (t : Fin cfg0.N) (h : t.val % 8 = 7) (b : Fin 8) (n : Fin 512) :
    Hand.cxAt m c t.val t.isLt (ix2 b n) = Chamfer.chamX (V m c main_arg0) (V m c main_arg1) (ix2 (gB t b) (gN t n)) := by
  -- after the last target tile the bound is 512 · 8 = 4096: every target point lies below it
  rw [cxAt_eq m c t b n, h, Chamfer.infBelow_full _ _ (by decide)]
  rfl

end Cert.KernelIdeal.Val

end
-- ==== Proof.InvCyKI.lean ====
/-
  What the target-to-source block holds after every grid point, in closed form over the extended reals.
  After point t (batch half t / 64, source tile (t / 8) % 8, target tile t % 8) its entry (b, k), k any of the 4096 target
  points, is the infimum of the distance to target point k from the source points of the source tiles that have already
  met k's target tile: the source points below 512·((t/8) % 8 + 1) for the columns k below 512·(t % 8 + 1) (target tiles
  up to the current one), and below 512·((t/8) % 8) for the later columns. This follows by induction on the point: a
  point changes only the 512 columns of its own target tile, there by a minimum with the tile's column infimum, and the
  block starts from +∞ at the first point of a batch half. At the last point of a batch half, where the block is written
  back, the infimum is over all 4096 source points for every column.
-/
import proofs.«175714_j26963804685126_1_alg».proof.Proof.StepsKI
import proofs.«175714_j26963804685126_1_alg».proof.Proof.PayloadKI
import proofs.«175714_j26963804685126_1_alg».proof.Proof.BlocksKI
import proofs.«175714_j26963804685126_1_alg».proof.Proof.MinLaws
import proofs.«175714_j26963804685126_1_alg».proof.Proof.ChamferSpec

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- One point's effect read at an entry: inside the point's 512 columns the minimum of the old entry and the point's
    column value at the local column, elsewhere the old entry. -/
private theorem cyStep_entry (t : Fin cfg0.N) (v : FVec Ideal S8x512 .f32) (base : Vec Ideal S8x4096 .f32)
    (b : Fin 8) (k : Fin 4096) :
    Hand.cyStep (grid0.coords t) v base (ix2 b k)
      = if h : 512 * (t.val % 8) ≤ k.val ∧ k.val < 512 * (t.val % 8) + 512 then
          min (base (ix2 b k)) (v (ix2 b ⟨k.val - 512 * (t.val % 8), by omega⟩))
        else base (ix2 b k) := by
  have e0 : k0_off1 (grid0.coords t) 0 = 0 := congrFun (off1_eq t) 0
  have e1 : k0_off1 (grid0.coords t) 1 = 512 * (t.val % 8) := congrFun (off1_eq t) 1
  unfold Hand.cyStep
  by_cases hc : 512 * (t.val % 8) ≤ k.val ∧ k.val < 512 * (t.val % 8) + 512
  · -- the entry lies in the slice on both axes
    have hall : ∀ a, k0_off1 (grid0.coords t) a ≤ ((ix2 b k) a).val
        ∧ ((ix2 b k) a).val < k0_off1 (grid0.coords t) a + S8x512.size a := by
      rw [Fin.forall_fin_two]
      refine ⟨⟨?_, ?_⟩, ?_, ?_⟩
      · rw [e0]; exact Nat.zero_le _
      · rw [e0]; show b.val < 0 + 8; omega
      · rw [e1]; exact hc.1
      · rw [e1]; exact hc.2
    rw [dif_pos hall, dif_pos hc, pay2_apply]
    congr 1
    · -- the slice read at the local position is the block at the entry itself
      show base ((Hand.sliceRect (grid0.coords t)).idx (Rect.unitLocal (s := S8x4096) (off := k0_off1 (grid0.coords t))
          (size := S8x512.size) (ix2 b k) hall)) = base (ix2 b k)
      congr 1
      funext a
      apply Fin.ext
      show k0_off1 (grid0.coords t) a + 1 * ((ix2 b k a).val - k0_off1 (grid0.coords t) a) = (ix2 b k a).val
      have := hall a
      omega
    · -- the local position is (b, k − 512·(target tile))
      congr 1
      funext a
      apply Fin.ext
      match a with
      | ⟨0, _⟩ => show b.val - k0_off1 (grid0.coords t) 0 = b.val; rw [e0]; rfl
      | ⟨1, _⟩ => show k.val - k0_off1 (grid0.coords t) 1 = k.val - 512 * (t.val % 8); rw [e1]
  · -- the entry misses the slice on the column axis
    have hnall : ¬ ∀ a, k0_off1 (grid0.coords t) a ≤ ((ix2 b k) a).val
        ∧ ((ix2 b k) a).val < k0_off1 (grid0.coords t) a + S8x512.size a := by
      intro hall
      have h1 := hall 1
      rw [e1] at h1
      exact hc h1
    rw [dif_neg hnall, dif_neg hc]

/-- The distance tile of a point's two tiles is the distance between the whole arrays' points the tiles hold. -/
private theorem tileDist_eq (c : Dev nD) (t : Fin cfg0.N) (b : Fin 8) (n' k' : Fin 512) :
    tileDist (iblk m c 0 t) (iblk m c 1 t) b n' k'
      = Chamfer.dist (V m c main_arg0) (V m c main_arg1) (gB t b) (gN t n') (gK t k') := by
  unfold tileDist Chamfer.dist Chamfer.sq Chamfer.dot
  simp only [tile0_apply, tile1_apply]

/-- The grid has 128 points. -/
private theorem lt128 (t : Fin cfg0.N) : t.val < 128 := by
  have h1 := t.isLt
  have h2 := N128
  omega

/-- Inside its column slice a point folds the next block of 512 source points into the running infimum. -/
private theorem cyStep_in (c : Dev nD) (t : Fin cfg0.N) (base : Vec Ideal S8x4096 .f32) (b : Fin 8) (k : Fin 4096)
    (hk : 512 * (t.val % 8) ≤ k.val ∧ k.val < 512 * (t.val % 8) + 512)
    (hbase : base (ix2 b k)
      = Chamfer.infBelow (fun n => Chamfer.dist (V m c main_arg0) (V m c main_arg1) (gB t b) n k) (512 * (t.val / 8 % 8))) :
    Hand.cyStep (grid0.coords t) (k0_pay4 (iblk m c 0 t) (iblk m c 1 t)) base (ix2 b k)
      = Chamfer.infBelow (fun n => Chamfer.dist (V m c main_arg0) (V m c main_arg1) (gB t b) n k) (512 * (t.val / 8 % 8 + 1)) := by
  have ht := lt128 t
  rw [cyStep_entry, dif_pos hk, pay4_apply]
  rw [Chamfer.infBelow_succ_block _ (t.val / 8 % 8) (by omega), hbase]
  refine congrArg (min _) (iInf_congr fun n' => ?_)
  rw [tileDist_eq]
  -- the tile's source row n' is source point 512·(source tile) + n', its local column is target point k
  show Chamfer.dist (V m c main_arg0) (V m c main_arg1) (gB t b) (gN t n') (gK t ⟨k.val - 512 * (t.val % 8), _⟩)
    = Chamfer.dist (V m c main_arg0) (V m c main_arg1) (gB t b) ⟨512 * (t.val / 8 % 8) + n'.val, _⟩ k
  congr 1
  apply Fin.ext
  show 512 * (t.val % 8) + (k.val - 512 * (t.val % 8)) = k.val
  omega

/-- Outside its column slice a point leaves the block as it was. -/
private theorem cyStep_out (c : Dev nD) (t : Fin cfg0.N) (v : FVec Ideal S8x512 .f32) (base : Vec Ideal S8x4096 .f32)
    (b : Fin 8) (k : Fin 4096) (hk : ¬(512 * (t.val % 8) ≤ k.val ∧ k.val < 512 * (t.val % 8) + 512)) :
    Hand.cyStep (grid0.coords t) v base (ix2 b k) = base (ix2 b k) := by
  rw [cyStep_entry, dif_neg hk]

/-- The closed form at the first point of a batch half: the block starts from +∞ (the infimum over no source points)
    and the point folds source tile 0 into the columns of target tile 0. -/
private theorem cyAt_eq_reset (c : Dev nD) (t : Fin cfg0.N) (h : t.val % 64 = 0) (b : Fin 8) (k : Fin 4096) :
    Hand.cyAt m c t.val t.isLt (ix2 b k)
      = Chamfer.infBelow (fun n => Chamfer.dist (V m c main_arg0) (V m c main_arg1) (gB t b) n k)
          (512 * (if k.val < 512 * (t.val % 8 + 1) then t.val / 8 % 8 + 1 else t.val / 8 % 8)) := by
  have ht := lt128 t
  have hn0 : t.val / 8 % 8 = 0 := by omega
  rw [Hand.cyAt_reset m c t h]
  by_cases hk : 512 * (t.val % 8) ≤ k.val ∧ k.val < 512 * (t.val % 8) + 512
  · have hb : (k0_pay1 (F := Ideal)) (ix2 b k)
        = Chamfer.infBelow (fun n => Chamfer.dist (V m c main_arg0) (V m c main_arg1) (gB t b) n k) (512 * (t.val / 8 % 8)) := by
      rw [pay1_apply, hn0]
      exact (Chamfer.infBelow_zero _).symm
    rw [cyStep_in m c t _ b k hk hb, if_pos (by omega)]
  · rw [cyStep_out c t _ _ b k hk, pay1_apply, if_neg (by omega), hn0]
    exact (Chamfer.infBelow_zero _).symm

/-- The closed form at any other point, from the closed form at the point before. -/
private theorem cyAt_eq_step (c : Dev nD) (t : Fin cfg0.N) (h : ¬t.val % 64 = 0)
    (ih : ∀ (b : Fin 8) (k : Fin 4096),
      Hand.cyAt m c (t.val - 1) (Nat.lt_of_le_of_lt (Nat.sub_le _ _) t.isLt) (ix2 b k)
        = Chamfer.infBelow (fun n => Chamfer.dist (V m c main_arg0) (V m c main_arg1)
            (gB ⟨t.val - 1, Nat.lt_of_le_of_lt (Nat.sub_le _ _) t.isLt⟩ b) n k)
          (512 * (if k.val < 512 * ((t.val - 1) % 8 + 1) then (t.val - 1) / 8 % 8 + 1 else (t.val - 1) / 8 % 8)))
    (b : Fin 8) (k : Fin 4096) :
    Hand.cyAt m c t.val t.isLt (ix2 b k)
      = Chamfer.infBelow (fun n => Chamfer.dist (V m c main_arg0) (V m c main_arg1) (gB t b) n k)
          (512 * (if k.val < 512 * (t.val % 8 + 1) then t.val / 8 % 8 + 1 else t.val / 8 % 8)) := by
  have ht := lt128 t
  -- the point before lies in the same batch half
  have hgB : gB ⟨t.val - 1, Nat.lt_of_le_of_lt (Nat.sub_le _ _) t.isLt⟩ b = gB t b := by
    apply Fin.ext
    show 8 * ((t.val - 1) / 64) + b.val = 8 * (t.val / 64) + b.val
    omega
  rw [Hand.cyAt_step m c t h]
  by_cases hk : 512 * (t.val % 8) ≤ k.val ∧ k.val < 512 * (t.val % 8) + 512
  · -- in the slice the point before had seen the source tiles before the current one
    have hb : Hand.cyAt m c (t.val - 1) (Nat.lt_of_le_of_lt (Nat.sub_le _ _) t.isLt) (ix2 b k)
        = Chamfer.infBelow (fun n => Chamfer.dist (V m c main_arg0) (V m c main_arg1) (gB t b) n k) (512 * (t.val / 8 % 8)) := by
      rw [ih b k, hgB]
      congr 1
      split_ifs <;> omega
    rw [cyStep_in m c t _ b k hk hb, if_pos (by omega)]
  · -- elsewhere neither the value nor the bound changes
    rw [cyStep_out c t _ _ b k hk, ih b k, hgB]
    congr 1
    split_ifs <;> omega

/-- The target-to-source block after point `t`. -/
theorem cyAt_eq (c : Dev nD) (t : Fin cfg0.N) (b : Fin 8) (k : Fin 4096) :
    Hand.cyAt m c t.val t.isLt (ix2 b k)
      = Chamfer.infBelow (fun n => Chamfer.dist (V m c main_arg0) (V m c main_arg1) (gB t b) n k)
          (512 * (if k.val < 512 * (t.val % 8 + 1) then t.val / 8 % 8 + 1 else t.val / 8 % 8)) := by
  -- induction on the point
  have key : ∀ (n : ℕ) (hn : n < cfg0.N) (b : Fin 8) (k : Fin 4096),
      Hand.cyAt m c n hn (ix2 b k)
        = Chamfer.infBelow (fun n' => Chamfer.dist (V m c main_arg0) (V m c main_arg1) (gB ⟨n, hn⟩ b) n' k)
            (512 * (if k.val < 512 * (n % 8 + 1) then n / 8 % 8 + 1 else n / 8 % 8)) := by
    intro n
    induction n with
    | zero => intro hn b k; exact cyAt_eq_reset m c ⟨0, hn⟩ rfl b k
    | succ n ih =>
      intro hn b k
      by_cases h64 : (n + 1) % 64 = 0
      · exact cyAt_eq_reset m c ⟨n + 1, hn⟩ h64 b k
      · exact cyAt_eq_step m c ⟨n + 1, hn⟩ h64 (fun b k => ih (Nat.lt_of_succ_lt hn) b k) b k
  exact key t.val t.isLt b k

/-- At a point whose target-to-source block is written back it holds the target-to-source values of its batches. -/
theorem cyAt_flush (c : Dev nD) (t : Fin cfg0.N) (h : t.val % 64 = 63) (b : Fin 8) (k : Fin 4096) :
    Hand.cyAt m c t.val t.isLt (ix2 b k) = Chamfer.chamY (V m c main_arg0) (V m c main_arg1) (ix2 (gB t b) k) := by
  have ht := lt128 t
  have hk := k.isLt
  rw [cyAt_eq m c t b k, Chamfer.infBelow_full _ _ (by split_ifs <;> omega)]
  rfl

end Cert.KernelIdeal.Val

end
-- ==== Proof.FinalKI.lean ====
/-
  The kernel program's result as a function of its arguments, over the extended reals.
  The source-to-target array is written back in 8 × 512 blocks, one per (batch half, source tile), at the last target
  tile of each sweep; the target-to-source array in 8 × 4096 blocks, one per batch half, at the last point of the half.
  By the closed forms of the running blocks each written-back block is the corresponding block of the source-to-target
  (target-to-source) infima, and the blocks tile the arrays; so after the region the two arrays hold exactly those
  infima, and the host lines after the region turn them into the loss.
-/
import proofs.«175714_j26963804685126_1_alg».proof.Proof.FrameKI
import proofs.«175714_j26963804685126_1_alg».proof.Proof.InvCxKI
import proofs.«175714_j26963804685126_1_alg».proof.Proof.InvCyKI
import proofs.«175714_j26963804685126_1_alg».proof.Proof.BlocksKI
import proofs.«175714_j26963804685126_1_alg».proof.Proof.ChamferSpec
import Idealize.ShloMosaic.Lib.StableHlo.Run
import Idealize.ShloMosaic.Lib.Pipeline.Value
import Idealize.ShloMosaic.Lib.Pipeline.FrameSuffix

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The block indices of the two output windows, decided over the grid. -/
theorem idx2 : ∀ t : Fin cfg0.N, win0_2.index t (0 : Fin 2) = t.val / 64 ∧ win0_2.index t (1 : Fin 2) = t.val / 8 % 8 :=
  (by decide +kernel : ∀ t : Fin grid0.N, _)
theorem idx3 : ∀ t : Fin cfg0.N, win0_3.index t (0 : Fin 2) = t.val / 64 ∧ win0_3.index t (1 : Fin 2) = 0 :=
  (by decide +kernel : ∀ t : Fin grid0.N, _)

/-- What a point at the last target tile writes back is its block of the source-to-target infima. -/
theorem flushed2_eq (c : Dev nD) (t : Fin cfg0.N) (h : t.val % 8 = 7) :
    (Hand.dats m 0 c).flushed 2 t
      = ((cfg0.win 2).blk t).view.read (Elt Ideal) (Chamfer.chamX (V m c main_arg0) (V m c main_arg1)) := by
  show (cfg0.win 2).cut (grid0.coords t) ((Hand.dats m 0 c).after 2 t) = _
  rw [Hand.after2]
  funext j
  have hj : j = ix2 (j 0) (j 1) := eq_ix2 j
  rw [hj]
  show Hand.cxAt m c t.val t.isLt (ix2 (j 0) (j 1)) = Chamfer.chamX (V m c main_arg0) (V m c main_arg1) (((cfg0.win 2).blk t).view.emb (ix2 (j 0) (j 1)))
  rw [cxAt_flush m c t h (j 0) (j 1)]
  refine congrArg _ ?_
  obtain ⟨e0, e1⟩ := idx2 t
  funext a; apply Fin.ext
  match a with
  | ⟨0, _⟩ => show 8 * (t.val / 64) + (j 0).val = win0_2.index t (0 : Fin 2) * 8 + 1 * (j 0).val; omega
  | ⟨1, _⟩ => show 512 * (t.val / 8 % 8) + (j 1).val = win0_2.index t (1 : Fin 2) * 512 + 1 * (j 1).val; omega

/-- What the last point of a batch half writes back is its block of the target-to-source infima. -/
theorem flushed3_eq (c : Dev nD) (t : Fin cfg0.N) (h : t.val % 64 = 63) :
    (Hand.dats m 0 c).flushed 3 t
      = ((cfg0.win 3).blk t).view.read (Elt Ideal) (Chamfer.chamY (V m c main_arg0) (V m c main_arg1)) := by
  show (cfg0.win 3).cut (grid0.coords t) ((Hand.dats m 0 c).after 3 t) = _
  rw [Hand.after3]
  funext j
  have hj : j = ix2 (j 0) (j 1) := eq_ix2 j
  rw [hj]
  show Hand.cyAt m c t.val t.isLt (ix2 (j 0) (j 1)) = Chamfer.chamY (V m c main_arg0) (V m c main_arg1) (((cfg0.win 3).blk t).view.emb (ix2 (j 0) (j 1)))
  rw [cyAt_flush m c t h (j 0) (j 1)]
  refine congrArg _ ?_
  obtain ⟨e0, e1⟩ := idx3 t
  funext a; apply Fin.ext
  match a with
  | ⟨0, _⟩ => show 8 * (t.val / 64) + (j 0).val = win0_3.index t (0 : Fin 2) * 8 + 1 * (j 0).val; omega
  | ⟨1, _⟩ => show (j 1).val = win0_3.index t (1 : Fin 2) * 4096 + 1 * (j 1).val; omega

/-- An index of the array is in a point's block iff each coordinate is in the block's range on its axis. -/
theorem mem_blk2 (t : Fin cfg0.N) (i : S16x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v0_0).slice (win0_2.rect t)).set ↔ _
  rw [View.set_slice_whole, Rect.mem_set_unit]
  exact Iff.rfl
theorem mem_blk3 (t : Fin cfg0.N) (i : S16x4096.Idx) :
    i ∈ ((cfg0.win 3).blk t).view.set ↔ ∀ a : Fin 2, win0_3.index t a * S8x4096.size a ≤ (i a).val ∧ (i a).val < win0_3.index t a * S8x4096.size a + S8x4096.size a := by
  show i ∈ ((View.whole main_v0_1).slice (win0_3.rect t)).set ↔ _
  rw [View.set_slice_whole, Rect.mem_set_unit]
  exact Iff.rfl

/-- Every entry of the source-to-target array is in the block written back at the last target tile of its batch half
    and source tile. -/
theorem cover2 (i : S16x4096.Idx) : ∃ t : Fin cfg0.N, (cfg0.win 2).flush t = true ∧ i ∈ ((cfg0.win 2).blk t).view.set := by
  have hi0 : (i 0).val < 16 := (i 0).isLt
  have hi1 : (i 1).val < 4096 := (i 1).isLt
  have hN : cfg0.N = 128 := N_0
  refine ⟨⟨64 * ((i 0).val / 8) + 8 * ((i 1).val / 512) + 7, by omega⟩, (flush0_2 _).mpr (by show (64 * ((i 0).val / 8) + 8 * ((i 1).val / 512) + 7) % 8 = 7; omega), ?_⟩
  rw [mem_blk2]
  obtain ⟨e0, e1⟩ := idx2 ⟨64 * ((i 0).val / 8) + 8 * ((i 1).val / 512) + 7, by omega⟩
  intro a
  match a with
  | ⟨0, _⟩ => show win0_2.index _ (0 : Fin 2) * 8 ≤ (i 0).val ∧ (i 0).val < win0_2.index _ (0 : Fin 2) * 8 + 8; rw [e0]; dsimp only; omega
  | ⟨1, _⟩ => show win0_2.index _ (1 : Fin 2) * 512 ≤ (i 1).val ∧ (i 1).val < win0_2.index _ (1 : Fin 2) * 512 + 512; rw [e1]; dsimp only; omega

/-- Every entry of the target-to-source array is in the block written back at the last point of its batch half. -/
theorem cover3 (i : S16x4096.Idx) : ∃ t : Fin cfg0.N, (cfg0.win 3).flush t = true ∧ i ∈ ((cfg0.win 3).blk t).view.set := by
  have hi0 : (i 0).val < 16 := (i 0).isLt
  have hi1 : (i 1).val < 4096 := (i 1).isLt
  have hN : cfg0.N = 128 := N_0
  refine ⟨⟨64 * ((i 0).val / 8) + 63, by omega⟩, (flush0_3 _).mpr (by show (64 * ((i 0).val / 8) + 63) % 64 = 63; omega), ?_⟩
  rw [mem_blk3]
  obtain ⟨e0, e1⟩ := idx3 ⟨64 * ((i 0).val / 8) + 63, by omega⟩
  intro a
  match a with
  | ⟨0, _⟩ => show win0_3.index _ (0 : Fin 2) * 8 ≤ (i 0).val ∧ (i 0).val < win0_3.index _ (0 : Fin 2) * 8 + 8; rw [e0]; dsimp only; omega
  | ⟨1, _⟩ => show win0_3.index _ (1 : Fin 2) * 4096 ≤ (i 1).val ∧ (i 1).val < win0_3.index _ (1 : Fin 2) * 4096 + 4096; rw [e1]; dsimp only; omega

/-- After the region the source-to-target array holds the source-to-target infima, -/
theorem final2 (c : Dev nD) : (Hand.dats m 0 c).arrAt 2 cfg0.N = Chamfer.chamX (V m c main_arg0) (V m c main_arg1) :=
  (Hand.dats m 0 c).arrAt_eq_of_cover 2 _ (fun t ht => flushed2_eq m c t ((flush0_2 t).mp ht)) cover2

/-- and the target-to-source array the target-to-source infima. -/
theorem final3 (c : Dev nD) : (Hand.dats m 0 c).arrAt 3 cfg0.N = Chamfer.chamY (V m c main_arg0) (V m c main_arg1) :=
  (Hand.dats m 0 c).arrAt_eq_of_cover 3 _ (fun t ht => flushed3_eq m c t ((flush0_3 t).mp ht)) cover3

/-- The host lines after the region, as one function of the two arrays: each array's row sums divided by 4096, the two
    added, the 16 batch values summed and divided by 16. -/
def lossOf (cx cy : FVec Ideal S16x4096 .f32) : FVec Ideal S_ .f32 :=
  Host.divf (F := Ideal)
    (Host.reduceAdd (F := Ideal)
      (addf
        (Host.divf (F := Ideal)
          (Host.reduceAdd (F := Ideal) cx (constant (F := Ideal) S_ .f32 0x00000000#32) Facts₀.reducesTo_S16x4096_S16_d1 Facts₀.h_S_)
          (broadcastInDim S16 ![] Facts₀.bcast_S_S16 (constant (F := Ideal) S_ .f32 0x45800000#32)))
        (Host.divf (F := Ideal)
          (Host.reduceAdd (F := Ideal) cy (constant (F := Ideal) S_ .f32 0x00000000#32) Facts₀.reducesTo_S16x4096_S16_d1 Facts₀.h_S_)
          (broadcastInDim S16 ![] Facts₀.bcast_S_S16 (constant (F := Ideal) S_ .f32 0x45800000#32))))
      (constant (F := Ideal) S_ .f32 0x00000000#32) Facts₀.reducesTo_S16_S_d0 Facts₀.h_S_)
    (constant (F := Ideal) S_ .f32 0x41800000#32)

/-- The program's result buffer after the host lines that follow the region. -/
theorem tail_eq (c : Dev nD) :
    Pipeline.afterTail₀ cfgs (Hand.dats m) 0 (V0 m) [hostOps1] c main_v9
      = lossOf (Chamfer.chamX (V m c main_arg0) (V m c main_arg1)) (Chamfer.chamY (V m c main_arg0) (V m c main_arg1)) := by
  have e2 : Pipeline.withArrays (cfgs 0).spec c (V0 m c) (fun w => (Hand.dats m 0 c).arrAt w (cfgs 0).N) (Proc.devRef .tc main_v0_0)
      = Chamfer.chamX (V m c main_arg0) (V m c main_arg1) :=
    (Pipeline.withArrays_arr spec0 launch0.win.arr_inj c _ _ 2).trans (final2 m c)
  have e3 : Pipeline.withArrays (cfgs 0).spec c (V0 m c) (fun w => (Hand.dats m 0 c).arrAt w (cfgs 0).N) (Proc.devRef .tc main_v0_1)
      = Chamfer.chamY (V m c main_arg0) (V m c main_arg1) :=
    (Pipeline.withArrays_arr spec0 launch0.win.arr_inj c _ _ 3).trans (final3 m c)
  unfold Pipeline.afterTail₀
  simp only [List.flatten_cons, List.flatten_nil, List.append_nil]
  show StableHlo.after hostOps1 _ (Proc.devRef .tc main_v9) = _
  after_results
  show lossOf _ _ = _
  rw [e2, e3]

/-- The kernel program run: its result is the loss of the source-to-target and target-to-source infima of its
    arguments, and the arguments end unchanged. -/
theorem run_value : θ_run defs (onTc (τ := τ) (main (F := Ideal))) ⟨m, fun _ => 0, ρ⟩ fun r => ∀ c : Dev nD,
      r.2.mem ((c.tc : Thread nD τ).loc main_v9)
        = lossOf (Chamfer.chamX (m ((c.tc : Thread nD τ).loc main_arg0)) (m ((c.tc : Thread nD τ).loc main_arg1)))
            (Chamfer.chamY (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v9 (Pipeline.mem_restRefs_of main_v9 (by decide) (by decide))).trans (tail_eq m c),
      ((h c).1 0).trans (((Hand.dats m 0 c).arrAt_in 0 rfl _).trans ((Hand.A_eq m c 0).trans (V_main_arg0 m c))),
      ((h c).1 1).trans (((Hand.dats m 0 c).arrAt_in 1 rfl _).trans ((Hand.A_eq m c 1).trans (V_main_arg1 m c)))⟩)
    (Hand.run_main m ρ)

end Cert.KernelIdeal.Val

end
-- ==== Proof.RefChamfer.lean ====
/-
  The reference program's two minimum reductions are the source-to-target and target-to-source infima. Its distance
  array at (b, n, k) is (|p|² broadcast along k) + (|t|² broadcast along n) − 2·(p · t), the squares and the product sums
  over the three coordinates; each minimum reduction starts from +∞ and runs over one axis of 4096 entries, hence is the
  infimum over that axis.
-/
import proofs.«175714_j26963804685126_1_alg».proof.Proof.Gen.ReferenceIdeal.Read
import proofs.«175714_j26963804685126_1_alg».proof.Proof.ChamferSpec
import Idealize.ShloMosaic.Lib.ValueIdx
import Idealize.ShloMosaic.Lib.Pipeline.Value
import Idealize.ShloMosaic.PureOps.Ideal.Laws

set_option maxRecDepth 16384

noncomputable section

namespace Cert.ReferenceIdeal.RefVal

open Cert.ReferenceIdeal Cert.ReferenceIdeal.Gen Cert.ReferenceIdeal.Read
open Idealize.ShloMosaic Idealize.ShloMosaic.TcCoe Idealize.ShloMosaic.ValueIdx Idealize.SL.Sem

/-- The two broadcasts of |p|² read the row sum at (b, n). -/
private theorem idx_sqX (b : Fin 16) (n k : Fin 4096) :
    idx_main_v5 (idx_main_v7 (ix3 b n k)) = ix2 b n :=
  funext fun a => Fin.ext (by match a with | ⟨0, _⟩ => rfl | ⟨1, _⟩ => rfl)

/-- The two broadcasts of |t|² read the row sum at (b, k). -/
private theorem idx_sqY (b : Fin 16) (n k : Fin 4096) :
    idx_main_v6 (idx_main_v8 (ix3 b n k)) = ix2 b k :=
  funext fun a => Fin.ext (by match a with | ⟨0, _⟩ => rfl | ⟨1, _⟩ => rfl)

/-- The sum |p|² at (b, n) runs over the entries (b, n, d). -/
private theorem idx_sumX (b : Fin 16) (n : Fin 4096) (d : Fin 3) :
    idx_main_v1 (ix2 b n) d = ix3 b n d :=
  funext fun a => Fin.ext (by match a with | ⟨0, _⟩ => rfl | ⟨1, _⟩ => rfl | ⟨2, _⟩ => rfl)

/-- The sum |t|² at (b, k) runs over the entries (b, k, d). -/
private theorem idx_sumY (b : Fin 16) (k : Fin 4096) (d : Fin 3) :
    idx_main_v3 (ix2 b k) d = ix3 b k d :=
  funext fun a => Fin.ext (by match a with | ⟨0, _⟩ => rfl | ⟨1, _⟩ => rfl | ⟨2, _⟩ => rfl)

/-- The product's left factor at (b, n, k), coordinate d, is the source entry (b, n, d). -/
private theorem idx_dotL (b : Fin 16) (n k : Fin 4096) (d : Fin 3) :
    lidx_main_v4 (ix3 b n k) d = ix3 b n d :=
  funext fun a => Fin.ext (by match a with | ⟨0, _⟩ => rfl | ⟨1, _⟩ => rfl | ⟨2, _⟩ => rfl)

/-- The product's right factor at (b, n, k), coordinate d, is the target entry (b, k, d). -/
private theorem idx_dotR (b : Fin 16) (n k : Fin 4096) (d : Fin 3) :
    ridx_main_v4 (ix3 b n k) d = ix3 b k d :=
  funext fun a => Fin.ext (by match a with | ⟨0, _⟩ => rfl | ⟨1, _⟩ => rfl | ⟨2, _⟩ => rfl)

/-- The reference's distance array, entry by entry. -/
theorem v12_apply (x0 x1 : FVec Ideal S16x4096x3 .f32) (b : Fin 16) (n k : Fin 4096) :
    val_main_v12 (F := Ideal) x0 x1 (ix3 b n k) = Chamfer.dist x0 x1 b n k := by
  rw [val_main_v12_apply, val_main_v9_apply, val_main_v11_apply, val_main_v7_apply, val_main_v8_apply,
    val_main_v5_apply, val_main_v6_apply, val_main_v10_apply, val_main_v4_apply, val_main_v1_apply,
    val_main_v3_apply, val_main_cst_1_apply, val_main_cst_apply, val_main_cst_0_apply]
  simp only [idx_sqX, idx_sqY, idx_sumX, idx_sumY, idx_dotL, idx_dotR, val_main_v0_apply, val_main_v2_apply,
    Ideal.mulf_def, Ideal.addf_def, Ideal.subf_def, Ideal.ofBits_def, Ideal.ofBits_zero_f32, zero_add]
  unfold Chamfer.dist Chamfer.sq Chamfer.dot
  rfl

/-- The word both minimum reductions start from is +∞. -/
private theorem ofBits_inf : Ideal.ofBits .f32 0x7F800000#32 = (⊤ : EReal) := by
  simp [Ideal.ofBits, Ideal.ieee]

/-- The shape facts that name the index inserted on the reduced axis. -/
private theorem reduces_d2 : S16x4096x4096.Reduces [2] S16x4096 := by decide
private theorem reduces_d1 : S16x4096x4096.Reduces [1] S16x4096 := by decide

/-- Inserting k on the last axis of (b, n) gives (b, n, k). -/
private theorem lift_d2 (j : S16x4096.Idx) (k : Fin 4096) :
    reduces_d2.lift j k = ix3 (n0 := 16) (n1 := 4096) (n2 := 4096) (j 0) (j 1) k :=
  funext fun a => Fin.ext (by match a with | ⟨0, _⟩ => rfl | ⟨1, _⟩ => rfl | ⟨2, _⟩ => rfl)

/-- Inserting n on the middle axis of (b, k) gives (b, n, k). -/
private theorem lift_d1 (j : S16x4096.Idx) (n : Fin 4096) :
    reduces_d1.lift j n = ix3 (n0 := 16) (n1 := 4096) (n2 := 4096) (j 0) n (j 1) :=
  funext fun a => Fin.ext (by match a with | ⟨0, _⟩ => rfl | ⟨1, _⟩ => rfl | ⟨2, _⟩ => rfl)

/-- Its minimum over the target axis is the source-to-target infimum. -/
theorem v13_eq (x0 x1 : FVec Ideal S16x4096x3 .f32) : val_main_v13 (F := Ideal) x0 x1 = Chamfer.chamX x0 x1 := by
  funext j
  unfold val_main_v13
  rw [Host.reduce_eq_fold_single FloatOps.minimumf _ _ reducesTo_S16x4096x4096_S16x4096_d2 reduces_d2 h_S_ j,
    val_main_cst_2_apply, Ideal.ofBits_def, ofBits_inf]
  refine (Chamfer.fold_min_top_eq_iInf (ι := Fin 4096)
    fun k => val_main_v12 (F := Ideal) x0 x1 (reduces_d2.lift j k)).trans ?_
  unfold Chamfer.chamX
  refine iInf_congr fun k => ?_
  rw [lift_d2]
  exact v12_apply x0 x1 (j 0) (j 1) k

/-- Its minimum over the source axis is the target-to-source infimum. -/
theorem v14_eq (x0 x1 : FVec Ideal S16x4096x3 .f32) : val_main_v14 (F := Ideal) x0 x1 = Chamfer.chamY x0 x1 := by
  funext j
  unfold val_main_v14
  rw [Host.reduce_eq_fold_single FloatOps.minimumf _ _ reducesTo_S16x4096x4096_S16x4096_d1 reduces_d1 h_S_ j,
    val_main_cst_3_apply, Ideal.ofBits_def, ofBits_inf]
  refine (Chamfer.fold_min_top_eq_iInf (ι := Fin 4096)
    fun n => val_main_v12 (F := Ideal) x0 x1 (reduces_d1.lift j n)).trans ?_
  unfold Chamfer.chamY
  refine iInf_congr fun n => ?_
  rw [lift_d1]
  exact v12_apply x0 x1 (j 0) n (j 1)

end Cert.ReferenceIdeal.RefVal

end
-- ==== Proof.lean ====
/-
  Chamfer loss of two point clouds: a tiled kernel against the direct formula, over the extended reals.
  Both programs take pred, target : [16, 4096, 3] and form, for every batch, source point n and target point k, the
  expanded squared distance |p|² + |t|² − 2·(p · t); the loss is the mean over batches of (the mean over source points
  of the least distance to a target point) + (the mean over target points of the least distance to a source point).
  The reference computes the whole [16, 4096, 4096] distance array and reduces it along either axis. The kernel sweeps
  a 2 × 8 × 8 grid of (batch half, source tile, target tile), computes one 8 × 512 × 512 distance tile per point, and
  folds its row minima into an 8 × 512 running block (restarted from +∞ at every first target tile) and its column
  minima into a 512-column slice of an 8 × 4096 running block (restarted from +∞ at the first point of a batch half).
  Over the extended reals a minimum of tile minima is the minimum over the union of the tiles, +∞ is its unit, and a sum
  of three products does not depend on how it is grouped; so the two arrays the kernel writes back are exactly the
  reference's two minimum reductions, and the host lines that turn them into the loss are the same in both programs.
  No finiteness of the inputs is used. The word-level kernel program is the same text as the idealized one (the
  idealization rewrote nothing), so its frame is the same argument read at the word-level instance.
-/
import proofs.«175714_j26963804685126_1_alg».proof.Defs
import proofs.«175714_j26963804685126_1_alg».proof.Proof.Gen.Kernel
import proofs.«175714_j26963804685126_1_alg».proof.Proof.Gen.KernelIdeal
import proofs.«175714_j26963804685126_1_alg».proof.Proof.Gen.ReferenceIdeal
import proofs.«175714_j26963804685126_1_alg».proof.Proof.Gen.ReferenceIdeal.Run
import proofs.«175714_j26963804685126_1_alg».proof.Proof.Gen.ReferenceIdeal.Read
import proofs.«175714_j26963804685126_1_alg».proof.Proof.Gen.Pre_finite_inputs
import proofs.«175714_j26963804685126_1_alg».proof.Proof.FrameK
import proofs.«175714_j26963804685126_1_alg».proof.Proof.FrameKI
import proofs.«175714_j26963804685126_1_alg».proof.Proof.FinalKI
import proofs.«175714_j26963804685126_1_alg».proof.Proof.RefChamfer
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result is the same loss of its two minimum reductions: its host lines after them are the
    kernel program's host lines after the region. -/
theorem ref_tail (x0 x1 : FVec Ideal Cert.ReferenceIdeal.S16x4096x3 .f32) :
    Cert.ReferenceIdeal.Read.val_main_v23 (F := Ideal) x0 x1
      = Cert.KernelIdeal.Val.lossOf (Cert.ReferenceIdeal.Read.val_main_v13 (F := Ideal) x0 x1)
          (Cert.ReferenceIdeal.Read.val_main_v14 (F := Ideal) x0 x1) := rfl

/-- From memories that agree on the arguments both programs end with the same result: the loss of the
    source-to-target and target-to-source infima. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, ref_tail, Cert.ReferenceIdeal.RefVal.v13_eq, Cert.ReferenceIdeal.RefVal.v14_eq,
    (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
